-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x64 .f32) (main_arg9 : FVec F S64x64 .f32) (main_arg10 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S2000x64 : Shape := ⟨2, ![2000, 64]⟩
abbrev S2000x1 : Shape := ⟨2, ![2000, 1]⟩

abbrev nBuf : Space → Nat
  | .hbm => 81
  | .vmem => 33
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S100000x1, .f32⟩
  | .hbm, ⟨35, _⟩ => ⟨S1x64, .f32⟩
  | .hbm, ⟨36, _⟩ => ⟨S100000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S_, .f32⟩
  | .hbm, ⟨51, _⟩ => ⟨S1600000, .f32⟩
  | .hbm, ⟨52, _⟩ => ⟨S_, .f32⟩
  | .hbm, ⟨53, _⟩ => ⟨S100000, .f32⟩
  | .hbm, ⟨54, _⟩ => ⟨S1600000x1, .i32⟩
  | .hbm, ⟨55, _⟩ => ⟨S100000, .f32⟩
  | .hbm, ⟨56, _⟩ => ⟨S100000x1, .f32⟩
  | .hbm, ⟨57, _⟩ => ⟨S1x64, .f32⟩
  | .hbm, ⟨58, _⟩ => ⟨S100000x64, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x64, .f32⟩
  | .hbm, ⟨68, _⟩ => ⟨S_, .f32⟩
  | .hbm, ⟨69, _⟩ => ⟨S100000x64, .f32⟩
  | .hbm, ⟨70, _⟩ => ⟨S1600000x1, .i32⟩
  | .hbm, ⟨71, _⟩ => ⟨S100000x64, .f32⟩
  | .hbm, ⟨72, _⟩ => ⟨S_, .f32⟩
  | .hbm, ⟨73, _⟩ => ⟨S1600000, .f32⟩
  | .hbm, ⟨74, _⟩ => ⟨S_, .f32⟩
  | .hbm, ⟨75, _⟩ => ⟨S100000, .f32⟩
  | .hbm, ⟨76, _⟩ => ⟨S1600000x1, .i32⟩
  | .hbm, ⟨77, _⟩ => ⟨S100000, .f32⟩
  | .hbm, ⟨78, _⟩ => ⟨S100000x1, .f32⟩
  | .hbm, ⟨79, _⟩ => ⟨S1x64, .f32⟩
  | .hbm, ⟨80, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x1, .f32⟩
  | .local _ .vmem, ⟨3, _⟩ => ⟨S2000x1, .f32⟩
  | .local _ .vmem, ⟨4, _⟩ => ⟨S2000x64, .f32⟩
  | .local _ .vmem, ⟨5, _⟩ => ⟨S2000x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x1, .f32⟩
  | .local _ .vmem, ⟨14, _⟩ => ⟨S2000x1, .f32⟩
  | .local _ .vmem, ⟨15, _⟩ => ⟨S2000x64, .f32⟩
  | .local _ .vmem, ⟨16, _⟩ => ⟨S2000x64, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x1, .f32⟩
  | .local _ .vmem, ⟨25, _⟩ => ⟨S2000x1, .f32⟩
  | .local _ .vmem, ⟨26, _⟩ => ⟨S2000x64, .f32⟩
  | .local _ .vmem, ⟨27, _⟩ => ⟨S2000x64, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S2000x64, .f32⟩
  | .local _ .vmem, ⟨32, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_cst_12 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  shapeCasts_S64_S1x64 : S64.ShapeCasts S1x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S2000x1_S2000x64 : S2000x1.Broadcasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .f32 = 32 ∨ (Rect.block (s := S100000x64) S2000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S100000x64.size a
  hwx2_6 : ∀ i : grid2.Coords, EltTy.bits .f32 = 32 ∨ (Rect.block (s := S100000x64) S2000x64.size (cc2_transform_6 i) (hinb2_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v13) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v47) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S_, .f32⟩
  | .hbm, ⟨29, _⟩ => ⟨S1600000x1, .f32⟩
  | .hbm, ⟨30, _⟩ => ⟨S_, .f32⟩
  | .hbm, ⟨31, _⟩ => ⟨S100000x1, .f32⟩
  | .hbm, ⟨32, _⟩ => ⟨S1600000x1, .i32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S1600000x1, .f32⟩
  | .hbm, ⟨63, _⟩ => ⟨S_, .f32⟩
  | .hbm, ⟨64, _⟩ => ⟨S100000x1, .f32⟩
  | .hbm, ⟨65, _⟩ => ⟨S1600000x1, .i32⟩
  | .hbm, ⟨66, _⟩ => ⟨S100000x1, .f32⟩
  | .hbm, ⟨67, _⟩ => ⟨S_, .f32⟩
  | .hbm, ⟨68, _⟩ => ⟨S100000x1, .f32⟩
  | .hbm, ⟨69, _⟩ => ⟨S100000x1, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000x64, .f32⟩
  | .hbm, ⟨80, _⟩ => ⟨S100000x64, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x64, .f32⟩
  | .hbm, ⟨90, _⟩ => ⟨S_, .f32⟩
  | .hbm, ⟨91, _⟩ => ⟨S100000x64, .f32⟩
  | .hbm, ⟨92, _⟩ => ⟨S1600000x1, .i32⟩
  | .hbm, ⟨93, _⟩ => ⟨S100000x64, .f32⟩
  | .hbm, ⟨94, _⟩ => ⟨S_, .f32⟩
  | .hbm, ⟨95, _⟩ => ⟨S1600000x1, .f32⟩
  | .hbm, ⟨96, _⟩ => ⟨S_, .f32⟩
  | .hbm, ⟨97, _⟩ => ⟨S100000x1, .f32⟩
  | .hbm, ⟨98, _⟩ => ⟨S1600000x1, .i32⟩
  | .hbm, ⟨99, _⟩ => ⟨S100000x1, .f32⟩
  | .hbm, ⟨100, _⟩ => ⟨S_, .f32⟩
  | .hbm, ⟨101, _⟩ => ⟨S100000x1, .f32⟩
  | .hbm, ⟨102, _⟩ => ⟨S100000x1, .f32⟩
  | .hbm, ⟨103, _⟩ => ⟨S100000x64, .f32⟩
  | .hbm, ⟨104, _⟩ => ⟨S100000x64, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_c_10 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  One layer of the graph network read index by index over the extended reals, and the three-layer network.

  A layer takes the node features `feat` (n rows of 64), an aggregated message array `msg` of the same shape, a
  column `deg` of in-degrees, two 64 x 64 weight matrices and a bias row.  Row `r`, column `q` of its result is

      (sum over k of  (msg[r,k] / max(deg[r], 1)) * Wl[k,q])  +  (sum over k of  feat[r,k] * Wr[k,q])  +  b[q],

  clipped below at zero when the layer has a rectifier.  The quotient is the extended reals' total division and the
  sums are finite sums of extended reals; no law beyond the definitions is used anywhere, so nothing here needs the
  entries to be finite.

  The entry is stated for any number of rows: a block of 2000 rows and the whole array of 100000 rows are the same
  function at two sizes, and `entry_congr` moves between them (row `r` of block `t` is row `2000 t + r` of the array).

  The network applies the layer three times, the first two with the rectifier; every layer aggregates its own input
  through one fixed map `aggr` (gather the rows the source indices name, add them up at the destination indices) and
  divides by one fixed degree column.  Both programs are shown to compute `net` of their arguments.
-/
import Idealize.ShloMosaic.PureOps.Ideal
import Idealize.ShloMosaic.Lib.ValueIdx

noncomputable section

namespace Cert.Sage

open Idealize.ShloMosaic Idealize.ShloMosaic.ValueIdx

/-- Node features: 100000 rows of 64. -/
abbrev SN64 : Shape := ⟨2, ![100000, 64]⟩
/-- A column over the nodes. -/
abbrev SN1 : Shape := ⟨2, ![100000, 1]⟩
/-- A weight matrix. -/
abbrev SW : Shape := ⟨2, ![64, 64]⟩
/-- A bias row. -/
abbrev SB : Shape := ⟨1, ![64]⟩

/-- The float literal one, as the extended real it denotes. -/
abbrev lit1 : EReal := Ideal.ofBits .f32 0x3F800000#32
/-- The float literal zero, as the extended real it denotes. -/
abbrev lit0 : EReal := Ideal.ofBits .f32 0x00000000#32

/-- Entry `(r, q)` of a layer before the rectifier: the mean-aggregated row times `Wl`, plus the node's own row times
    `Wr`, plus the bias. -/
def pre {n : ℕ} (msg : (⟨2, ![n, 64]⟩ : Shape).Idx → EReal) (deg : (⟨2, ![n, 1]⟩ : Shape).Idx → EReal)
    (feat : (⟨2, ![n, 64]⟩ : Shape).Idx → EReal) (Wl Wr : SW.Idx → EReal) (b : SB.Idx → EReal) (r : Fin n) (q : Fin 64) : EReal :=
  (∑ k : Fin 64, Ideal.div (msg (ix2 r k)) (max (deg (ix2 r (0 : Fin 1))) lit1) * Wl (ix2 k q))
    + (∑ k : Fin 64, feat (ix2 r k) * Wr (ix2 k q)) + b (ix1 q)

/-- Entry `(r, q)` of a layer: `pre`, clipped below at zero when `relu` is set. -/
def entry {n : ℕ} (relu : Bool) (msg : (⟨2, ![n, 64]⟩ : Shape).Idx → EReal) (deg : (⟨2, ![n, 1]⟩ : Shape).Idx → EReal)
    (feat : (⟨2, ![n, 64]⟩ : Shape).Idx → EReal) (Wl Wr : SW.Idx → EReal) (b : SB.Idx → EReal) (r : Fin n) (q : Fin 64) : EReal :=
  if relu then max (pre msg deg feat Wl Wr b r q) lit0 else pre msg deg feat Wl Wr b r q

/-- The entry depends on its arrays only through row `r` of `msg`, `deg`, `feat`, column `q` of the weights and entry
    `q` of the bias: two sets of arrays (of any two heights) that agree there give the same entry. -/
theorem entry_congr {n n' : ℕ} (relu : Bool)
    {msg : (⟨2, ![n, 64]⟩ : Shape).Idx → EReal} {msg' : (⟨2, ![n', 64]⟩ : Shape).Idx → EReal}
    {deg : (⟨2, ![n, 1]⟩ : Shape).Idx → EReal} {deg' : (⟨2, ![n', 1]⟩ : Shape).Idx → EReal}
    {feat : (⟨2, ![n, 64]⟩ : Shape).Idx → EReal} {feat' : (⟨2, ![n', 64]⟩ : Shape).Idx → EReal}
    {Wl Wl' Wr Wr' : SW.Idx → EReal} {b b' : SB.Idx → EReal} (r : Fin n) (r' : Fin n') (q : Fin 64)
    (hm : ∀ k : Fin 64, msg (ix2 r k) = msg' (ix2 r' k)) (hd : deg (ix2 r (0 : Fin 1)) = deg' (ix2 r' (0 : Fin 1)))
    (hf : ∀ k : Fin 64, feat (ix2 r k) = feat' (ix2 r' k)) (hl : ∀ k : Fin 64, Wl (ix2 k q) = Wl' (ix2 k q))
    (hr : ∀ k : Fin 64, Wr (ix2 k q) = Wr' (ix2 k q)) (hb : b (ix1 q) = b' (ix1 q)) :
    entry relu msg deg feat Wl Wr b r q = entry relu msg' deg' feat' Wl' Wr' b' r' q := by
  unfold entry pre
  simp only [hm, hd, hf, hl, hr, hb]

/-- A layer's result as one array of 100000 rows. -/
def combine (relu : Bool) (msg : SN64.Idx → EReal) (deg : SN1.Idx → EReal) (feat : SN64.Idx → EReal)
    (Wl Wr : SW.Idx → EReal) (b : SB.Idx → EReal) : SN64.Idx → EReal :=
  fun i => entry relu msg deg feat Wl Wr b (i 0) (i 1)

theorem combine_ix2 (relu : Bool) (msg : SN64.Idx → EReal) (deg : SN1.Idx → EReal) (feat : SN64.Idx → EReal)
    (Wl Wr : SW.Idx → EReal) (b : SB.Idx → EReal) (r : Fin 100000) (q : Fin 64) :
    combine relu msg deg feat Wl Wr b (ix2 r q) = entry relu msg deg feat Wl Wr b r q := rfl

/-- Two arrays that agree at every pair of coordinates are equal. -/
theorem ext2 {f g : SN64.Idx → EReal} (h : ∀ (r : Fin 100000) (q : Fin 64), f (ix2 r q) = g (ix2 r q)) : f = g := by
  funext i; rw [eq_ix2 i]; exact h _ _

/-- A layer over a fixed aggregation map and degree column. -/
def layer (aggr : (SN64.Idx → EReal) → (SN64.Idx → EReal)) (deg : SN1.Idx → EReal) (relu : Bool)
    (feat : SN64.Idx → EReal) (Wl Wr : SW.Idx → EReal) (b : SB.Idx → EReal) : SN64.Idx → EReal :=
  combine relu (aggr feat) deg feat Wl Wr b

/-- The network: three layers, the first two rectified. -/
def net (aggr : (SN64.Idx → EReal) → (SN64.Idx → EReal)) (deg : SN1.Idx → EReal) (x : SN64.Idx → EReal)
    (Wl0 Wr0 : SW.Idx → EReal) (b0 : SB.Idx → EReal) (Wl1 Wr1 : SW.Idx → EReal) (b1 : SB.Idx → EReal)
    (Wl2 Wr2 : SW.Idx → EReal) (b2 : SB.Idx → EReal) : SN64.Idx → EReal :=
  layer aggr deg false (layer aggr deg true (layer aggr deg true x Wl0 Wr0 b0) Wl1 Wr1 b1) Wl2 Wr2 b2

end Cert.Sage

end
-- ==== Proof.LibColumns.lean ====
/-
  Layout operations of the "keepdims" kind read at an index, and the index a one-axis reduction sums over.

  A row-wise reduction `[a, b] → [a]` that keeps its axis is printed as the reduction, a cast of the `[a]` result to the
  column `[a, 1]`, and a broadcast of that column back over `[a, b]`. Each lemma reads one of these at an index given by
  its coordinates: the column at `(r, ·)` is the vector at `r`; the broadcast at `(r, c)` is the column at `r`; and the
  indices a reduction along axis 1 (or axis 0) sums over, for the kept coordinate `r`, are `(r, k)` (or `(k, r)`).
-/
import Idealize.ShloMosaic.Lib.Pipeline.Value
import Idealize.ShloMosaic.Lib.ValueLayout
import Idealize.ShloMosaic.PureOps.Ideal.Laws

noncomputable section

namespace Cert.LibColumns

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry of row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Reducing axis 1 of `[a, b]`: the kept coordinate `r` with the reduced coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing axis 0 of `[a, b]`: the kept coordinate `c` with the reduced coordinate `k` put back is `(k, c)`. -/
theorem lift_axis0 {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A float sum along axis 1 of `[a, b]`, at the ideal values: at `r` it is the sum over the row's `b` entries. -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) : multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_axis1 h r k)

/-- A float sum along axis 0 of `[a, b]`, at the ideal values: at `c` it is the sum over the column's `a` entries. -/
theorem colSum_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (c : Fin b) : multiReduction .add [0] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_axis0 h c k)

/-- A float maximum along axis 1 of `[a, b]`, at the ideal values: at `r` it is the fold of `max`, from the accumulator's
    value, over the row's `b` entries. -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (r : Fin a) : multiReduction .maximumf [1] ⟨1, ![a]⟩ src acc h hφ hacc (ix1 r)
      = (Finset.univ : Finset (Fin b)).fold max (Ideal.ofBits φ acc) fun k => src (ix2 r k) := by
  refine (Ideal.multiReduction_maximumf_single src acc h hφ hacc (ix1 r)).trans ?_
  have hf : (src ∘ h.lift (ix1 r)) = fun k : Fin b => src (ix2 r k) := funext fun k => congrArg src (lift_axis1 h r k)
  exact congrArg (fun f => Finset.fold max (Ideal.ofBits φ acc) f (Finset.univ : Finset (Fin b))) hf

end Cert.LibColumns

end
-- ==== Proof.Payload.lean ====
/-
  What each region's body stores, read at an entry.

  The body of every region loads a block of 2000 message rows, the 2000 degrees beside them, the 2000 feature rows, the
  two weight matrices and the bias row, and stores one 2000 x 64 block.  Over the extended reals a change of float
  format is the identity and a matrix product into a zero accumulator is the plain sum over the contracted axis, so
  entry `(r, q)` of the stored block is the layer's entry of the specification at 2000 rows: the message row over the
  clipped degree, times `Wl`; plus the feature row times `Wr`; plus the bias; clipped at zero in the first two regions.
-/
import proofs.«171853_j26731876451057_1_alg».proof.Proof.Gen.KernelIdeal.Skeleton
import proofs.«171853_j26731876451057_1_alg».proof.Proof.Spec
import proofs.«171853_j26731876451057_1_alg».proof.Proof.LibColumns
import Idealize.ShloMosaic.PureOps.Ideal.Laws
import Idealize.ShloMosaic.Lib.ValueIdx
import Idealize.ShloMosaic.Lib.ValueLayout
import Idealize.ShloMosaic.Lib.Pipeline.Value

noncomputable section

namespace Cert.Sage.Pay

open Idealize.ShloMosaic Idealize.ShloMosaic.ValueIdx Cert.KernelIdeal Cert.KernelIdeal.Gen

/-- The bias row of a 1 x 64 block as 64 entries. -/
def biasOf (v : Vec Ideal S1x64 .f32) : Cert.Sage.SB.Idx → EReal := fun j => v (ix2 (0 : Fin 1) (j 0))

/-- A row `[1, b]` broadcast to `[a, b]` reads, at `(r, c)`, the row's entry of column `c`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if b = 1 then 0 else c.val
    split
    · have := c.isLt; omega
    · rfl

/-! The operand indices of the block product `[2000, 64] x [64, 64]`, contracting the left factor's axis 1 with the
    right factor's axis 0: at output index `i` and contraction position `k` the left index is `(i 0, k)` and the right
    index is `(k, i 1)`.  One lemma per axis. -/

theorem lhs_0 (i : S2000x64.Idx) (k : dot_S2000x64_S64x64_S2000x64_1_0_0_1_n_n.contr.Idx) :
    (dot_S2000x64_S64x64_S2000x64_1_0_0_1_n_n.lhsIdx i k 0).val = (i 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl

theorem lhs_1 (i : S2000x64.Idx) (k : dot_S2000x64_S64x64_S2000x64_1_0_0_1_n_n.contr.Idx) :
    (dot_S2000x64_S64x64_S2000x64_1_0_0_1_n_n.lhsIdx i k 1).val = (k ⟨0, by decide⟩).val :=
  dot_S2000x64_S64x64_S2000x64_1_0_0_1_n_n.lhsIdx_val_of_single rfl i k

theorem rhs_0 (i : S2000x64.Idx) (k : dot_S2000x64_S64x64_S2000x64_1_0_0_1_n_n.contr.Idx) :
    (dot_S2000x64_S64x64_S2000x64_1_0_0_1_n_n.rhsIdx i k 0).val = (k ⟨0, by decide⟩).val :=
  dot_S2000x64_S64x64_S2000x64_1_0_0_1_n_n.rhsIdx_val_of_single rfl i k

theorem rhs_1 (i : S2000x64.Idx) (k : dot_S2000x64_S64x64_S2000x64_1_0_0_1_n_n.contr.Idx) :
    (dot_S2000x64_S64x64_S2000x64_1_0_0_1_n_n.rhsIdx i k 1).val = (i 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- The block product into the zero accumulator at `(r, q)`: row `r` of the left factor against column `q` of the
    right one, summed over the 64 contracted positions. -/
theorem mm_apply {φ₁ φ₂ : FTy} (lhs : FVec Ideal S2000x64 φ₁) (rhs : FVec Ideal S64x64 φ₂) (r : Fin 2000) (q : Fin 64) :
    matmul (F := Ideal) dot_S2000x64_S64x64_S2000x64_1_0_0_1_n_n none lhs rhs (constant S2000x64 .f32 0x00000000#32) (ix2 r q)
      = ∑ k : Fin 64, lhs (ix2 r k) * rhs (ix2 k q) := by
  refine (Ideal.matmul_constant_zero_apply dot_S2000x64_S64x64_S2000x64_1_0_0_1_n_n none lhs rhs (ix2 r q)).trans ?_
  -- the contraction shape has one axis of extent 64: sum over that coordinate instead
  rw [← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 r q)
      ((contrEquiv1 dot_S2000x64_S64x64_S2000x64_1_0_0_1_n_n 64 rfl rfl).symm k) = ix2 r k :=
    funext fun a => Fin.ext (by
      match a with
      | ⟨0, _⟩ => exact lhs_0 _ _
      | ⟨1, _⟩ => exact (lhs_1 _ _).trans hk)
  have er : dot_S2000x64_S64x64_S2000x64_1_0_0_1_n_n.rhsIdx (ix2 r q)
      ((contrEquiv1 dot_S2000x64_S64x64_S2000x64_1_0_0_1_n_n 64 rfl rfl).symm k) = ix2 k q :=
    funext fun a => Fin.ext (by
      match a with
      | ⟨0, _⟩ => exact (rhs_0 _ _).trans hk
      | ⟨1, _⟩ => exact rhs_1 _ _)
  rw [el, er]

/-- The part every region shares, before the rectifier: the message block over the clipped degree column times `Wl`,
    plus the feature block times `Wr`, plus the bias row, read at `(r, q)`.  The narrowing to the 16-bit format and the
    casts of a shape to itself are identities on extended reals, so each product's factors are the loaded entries. -/
theorem core_apply (v0 : Vec Ideal S2000x1 .f32) (v4 v9 : Vec Ideal S2000x64 .f32) (Wl Wr : Vec Ideal S64x64 .f32)
    (b : Vec Ideal S1x64 .f32) (r : Fin 2000) (q : Fin 64) :
    addf (F := Ideal)
      (addf (F := Ideal)
        (matmul (F := Ideal) dot_S2000x64_S64x64_S2000x64_1_0_0_1_n_n none
          (truncf (F := Ideal) .bf16
            (divf (F := Ideal) (shapeCast S2000x64 v4 shapeCasts_S2000x64_S2000x64)
              (broadcastTo S2000x64
                (maximumf (F := Ideal) (shapeCast S2000x1 v0 shapeCasts_S2000x1_S2000x1)
                  (broadcast S2000x1 (Scalar.ofBits (F := Ideal) .f32 0x3F800000#32)))
                broadcasts_S2000x1_S2000x64))
            bitsLt_bf16_f32)
          (truncf (F := Ideal) .bf16 Wl bitsLt_bf16_f32) (constant S2000x64 .f32 0x00000000#32))
        (matmul (F := Ideal) dot_S2000x64_S64x64_S2000x64_1_0_0_1_n_n none
          (truncf (F := Ideal) .bf16 v9 bitsLt_bf16_f32)
          (truncf (F := Ideal) .bf16 Wr bitsLt_bf16_f32) (constant S2000x64 .f32 0x00000000#32)))
      (broadcastTo S2000x64 (shapeCast S1x64 b shapeCasts_S1x64_S1x64) broadcasts_S1x64_S2000x64) (ix2 r q)
      = Cert.Sage.pre (n := 2000) v4 v0 v9 Wl Wr (biasOf b) r q := by
  unfold Cert.Sage.pre
  refine (addf_apply _ _ _).trans (congrArg₂ (· + ·) ((addf_apply _ _ _).trans (congrArg₂ (· + ·) ?_ ?_)) ?_)
  · -- the message term: the quotient's two casts are identities, and the clipped degree column, spread over the 64
    -- columns, is read at row `r` whatever the column `k`
    refine (mm_apply _ _ r q).trans (Finset.sum_congr rfl fun k _ => ?_)
    rw [shapeCast_self, shapeCast_self]
    show Ideal.div (v4 (ix2 r k)) (broadcastTo S2000x64 _ broadcasts_S2000x1_S2000x64 (ix2 r k)) * Wl (ix2 k q) = _
    rw [Cert.LibColumns.broadcastTo_a1_ab_apply]
    rfl
  · -- the feature term: the product of the two loaded blocks as it stands
    exact mm_apply _ _ r q
  · -- the bias: the one row spread over the 2000 rows is read at column `q`
    rw [shapeCast_self]
    exact broadcastTo_1b_ab_apply b broadcasts_S1x64_S2000x64 r q

/-- Region 0's stored block at `(r, q)`. -/
theorem pay0_apply (v0 : Vec Ideal S2000x1 .f32) (v4 v9 : Vec Ideal S2000x64 .f32) (v11 v13 : Vec Ideal S64x64 .f32)
    (v18 : Vec Ideal S1x64 .f32) (r : Fin 2000) (q : Fin 64) :
    k0_pay1 (F := Ideal) v0 v4 v9 v11 v13 v18 (ix2 r q)
      = Cert.Sage.entry (n := 2000) true v4 v0 v9 v11 v13 (biasOf v18) r q := by
  unfold k0_pay1 Cert.Sage.entry
  rw [if_pos rfl]
  refine (maximumf_apply _ _ _).trans (congrArg₂ max ?_ rfl)
  exact core_apply v0 v4 v9 v11 v13 v18 r q

/-- Region 1's stored block at `(r, q)`. -/
theorem pay1_apply (v0 : Vec Ideal S2000x1 .f32) (v4 v9 : Vec Ideal S2000x64 .f32) (v12 v14 : Vec Ideal S64x64 .f32)
    (v19 : Vec Ideal S1x64 .f32) (r : Fin 2000) (q : Fin 64) :
    k1_pay1 (F := Ideal) v0 v4 v9 v12 v14 v19 (ix2 r q)
      = Cert.Sage.entry (n := 2000) true v4 v0 v9 v12 v14 (biasOf v19) r q := by
  unfold k1_pay1 Cert.Sage.entry
  rw [if_pos rfl]
  refine (maximumf_apply _ _ _).trans (congrArg₂ max ?_ rfl)
  -- this region casts the feature block to its own shape first: an identity
  rw [shapeCast_self v9]
  exact core_apply v0 v4 v9 v12 v14 v19 r q

/-- Region 2's stored block at `(r, q)`: no rectifier. -/
theorem pay2_apply (v0 : Vec Ideal S2000x1 .f32) (v4 v9 : Vec Ideal S2000x64 .f32) (v12 v14 : Vec Ideal S64x64 .f32)
    (v19 : Vec Ideal S1x64 .f32) (r : Fin 2000) (q : Fin 64) :
    k2_pay1 (F := Ideal) v0 v4 v9 v12 v14 v19 (ix2 r q)
      = Cert.Sage.entry (n := 2000) false v4 v0 v9 v12 v14 (biasOf v19) r q := by
  unfold k2_pay1 Cert.Sage.entry
  rw [if_neg (by decide)]
  -- the feature block's cast to its own shape is an identity
  rw [shapeCast_self v9]
  exact core_apply v0 v4 v9 v12 v14 v19 r q

end Cert.Sage.Pay

end
-- ==== Proof.RegionValue.lean ====
/-
  What each region leaves in its output array.

  A region runs its body at 50 grid points; point `t` reads rows `2000 t … 2000 t + 1999` of the message array, the
  degree column and the feature array, the whole of both weight matrices and of the bias row, and writes rows
  `2000 t … 2000 t + 1999` of the output array.  The blocks written are disjoint and cover the output, and entry `(r, q)`
  of the block written at point `t` is the layer's entry at row `2000 t + r` of the whole arrays.  So after the region the
  output array is the layer of the specification applied to the arrays the region found.
-/
import proofs.«171853_j26731876451057_1_alg».proof.Proof.Gen.KernelIdeal.Frame
import proofs.«171853_j26731876451057_1_alg».proof.Proof.Payload
import Idealize.ShloMosaic.Lib.Pipeline.Value

set_option maxRecDepth 16384

noncomputable section

namespace Cert.Sage.Region

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- A pair of zero offsets is the zero offset function. -/
theorem zeroPair : (![0, 0] : Fin 2 → Nat) = fun _ => 0 := funext fun a => by fin_cases a <;> rfl

/-! ## Region 0 -/

/-- The block index of every window at grid point `t`: the three row-blocked inputs and the output sit at row block
    `t`, column block 0; the two weight matrices and the bias row sit at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A grid point of region 0 is below 50. -/
theorem point0_lt (t : Fin cfg0.N) : t.val < 50 :=
  lt_of_lt_of_eq t.isLt (show cfg0.N = 50 from N_0)

/-- The six input blocks at point `t`, each at its literal shape. -/
abbrev msgblk0 (c : Dev nD) (t : Fin cfg0.N) : Vec Ideal S2000x64 .f32 := iblk0 V c 0 t
abbrev degblk0 (c : Dev nD) (t : Fin cfg0.N) : Vec Ideal S2000x1 .f32 := iblk0 V c 1 t
abbrev featblk0 (c : Dev nD) (t : Fin cfg0.N) : Vec Ideal S2000x64 .f32 := iblk0 V c 2 t
abbrev wlblk0 (c : Dev nD) (t : Fin cfg0.N) : Vec Ideal S64x64 .f32 := iblk0 V c 3 t
abbrev wrblk0 (c : Dev nD) (t : Fin cfg0.N) : Vec Ideal S64x64 .f32 := iblk0 V c 4 t
abbrev biasblk0 (c : Dev nD) (t : Fin cfg0.N) : Vec Ideal S1x64 .f32 := iblk0 V c 5 t

/-- Row `r` of the message block at point `t` is row `2000 t + r` of the message array: on each axis a block's entry
    sits at block index times block size plus its own coordinate. -/
theorem msgblk0_apply (c : Dev nD) (t : Fin cfg0.N) (r : Fin 2000) (k : Fin 64) (h : 2000 * t.val + r.val < 100000) :
    msgblk0 V c t (ix2 r k) = (V c main_v13 : S100000x64.Idx → EReal) (ix2 ⟨2000 * t.val + r.val, h⟩ k) := by
  obtain ⟨e0, e1, -⟩ := idx0 t
  show V c main_v13 (((cfg0.win 0).blk t).view.emb (ix2 r k)) = V c main_v13 _
  refine congrArg (V c main_v13) (funext fun a => Fin.ext ?_)
  match a with
  | ⟨0, _⟩ => show win0_0.index t (0 : Fin 2) * 2000 + 1 * r.val = 2000 * t.val + r.val; omega
  | ⟨1, _⟩ => show win0_0.index t (1 : Fin 2) * 64 + 1 * k.val = k.val; omega

/-- Row `r` of the degree block at point `t` is row `2000 t + r` of the degree column. -/
theorem degblk0_apply (c : Dev nD) (t : Fin cfg0.N) (r : Fin 2000) (z : Fin 1) (h : 2000 * t.val + r.val < 100000) :
    degblk0 V c t (ix2 r z) = (V c main_v18 : S100000x1.Idx → EReal) (ix2 ⟨2000 * t.val + r.val, h⟩ z) := by
  obtain ⟨-, -, e0, e1, -⟩ := idx0 t
  show V c main_v18 (((cfg0.win 1).blk t).view.emb (ix2 r z)) = V c main_v18 _
  refine congrArg (V c main_v18) (funext fun a => Fin.ext ?_)
  match a with
  | ⟨0, _⟩ => show win0_1.index t (0 : Fin 2) * 2000 + 1 * r.val = 2000 * t.val + r.val; omega
  | ⟨1, _⟩ => show win0_1.index t (1 : Fin 2) * 1 + 1 * z.val = z.val; omega

/-- Row `r` of the feature block at point `t` is row `2000 t + r` of the feature array. -/
theorem featblk0_apply (c : Dev nD) (t : Fin cfg0.N) (r : Fin 2000) (k : Fin 64) (h : 2000 * t.val + r.val < 100000) :
    featblk0 V c t (ix2 r k) = (V c main_arg0 : S100000x64.Idx → EReal) (ix2 ⟨2000 * t.val + r.val, h⟩ k) := by
  obtain ⟨-, -, -, -, e0, e1, -⟩ := idx0 t
  show V c main_arg0 (((cfg0.win 2).blk t).view.emb (ix2 r k)) = V c main_arg0 _
  refine congrArg (V c main_arg0) (funext fun a => Fin.ext ?_)
  match a with
  | ⟨0, _⟩ => show win0_2.index t (0 : Fin 2) * 2000 + 1 * r.val = 2000 * t.val + r.val; omega
  | ⟨1, _⟩ => show win0_2.index t (1 : Fin 2) * 64 + 1 * k.val = k.val; omega

/-- The first weight block is the whole first weight matrix at every point. -/
theorem wlblk0_apply (c : Dev nD) (t : Fin cfg0.N) (k q : Fin 64) :
    wlblk0 V c t (ix2 k q) = (V c main_arg2 : S64x64.Idx → EReal) (ix2 k q) := by
  obtain ⟨-, -, -, -, -, -, e0, e1, -⟩ := idx0 t
  show V c main_arg2 (((cfg0.win 3).blk t).view.emb (ix2 k q)) = V c main_arg2 _
  refine congrArg (V c main_arg2) (funext fun a => Fin.ext ?_)
  match a with
  | ⟨0, _⟩ => show win0_3.index t (0 : Fin 2) * 64 + 1 * k.val = k.val; omega
  | ⟨1, _⟩ => show win0_3.index t (1 : Fin 2) * 64 + 1 * q.val = q.val; omega

/-- The second weight block is the whole second weight matrix at every point. -/
theorem wrblk0_apply (c : Dev nD) (t : Fin cfg0.N) (k q : Fin 64) :
    wrblk0 V c t (ix2 k q) = (V c main_arg3 : S64x64.Idx → EReal) (ix2 k q) := by
  obtain ⟨-, -, -, -, -, -, -, -, e0, e1, -⟩ := idx0 t
  show V c main_arg3 (((cfg0.win 4).blk t).view.emb (ix2 k q)) = V c main_arg3 _
  refine congrArg (V c main_arg3) (funext fun a => Fin.ext ?_)
  match a with
  | ⟨0, _⟩ => show win0_4.index t (0 : Fin 2) * 64 + 1 * k.val = k.val; omega
  | ⟨1, _⟩ => show win0_4.index t (1 : Fin 2) * 64 + 1 * q.val = q.val; omega

/-- The bias block is the whole bias row at every point. -/
theorem biasblk0_apply (c : Dev nD) (t : Fin cfg0.N) (z : Fin 1) (q : Fin 64) :
    biasblk0 V c t (ix2 z q) = (V c main_v19 : S1x64.Idx → EReal) (ix2 z q) := by
  obtain ⟨-, -, -, -, -, -, -, -, -, -, e0, e1, -⟩ := idx0 t
  show V c main_v19 (((cfg0.win 5).blk t).view.emb (ix2 z q)) = V c main_v19 _
  refine congrArg (V c main_v19) (funext fun a => Fin.ext ?_)
  match a with
  | ⟨0, _⟩ => show win0_5.index t (0 : Fin 2) * 1 + 1 * z.val = z.val; omega
  | ⟨1, _⟩ => show win0_5.index t (1 : Fin 2) * 64 + 1 * q.val = q.val; omega

/-- The rectified layer of the arrays region 0 finds. -/
abbrev layer0 (c : Dev nD) : S100000x64.Idx → EReal :=
  Cert.Sage.combine true (V c main_v13) (V c main_v18) (V c main_arg0) (V c main_arg2) (V c main_arg3)
    (Cert.Sage.Pay.biasOf (V c main_v19))

/-- Entry `(r, q)` of what point `t` stores is the layer's entry at row `2000 t + r`: the stored block is the layer
    at 2000 rows of the input blocks, and the entry reads its arrays only along row `r`, column `q`, where each
    input block agrees with its array at row `2000 t + r`. -/
theorem stored0_apply (c : Dev nD) (t : Fin cfg0.N) (r : Fin 2000) (q : Fin 64) (h : 2000 * t.val + r.val < 100000) :
    k0_pay1 (F := Ideal) (degblk0 V c t) (msgblk0 V c t) (featblk0 V c t) (wlblk0 V c t) (wrblk0 V c t) (biasblk0 V c t) (ix2 r q)
      = layer0 V c (ix2 ⟨2000 * t.val + r.val, h⟩ q) := by
  refine (Cert.Sage.Pay.pay0_apply _ _ _ _ _ _ r q).trans ?_
  refine (Cert.Sage.entry_congr true r (⟨2000 * t.val + r.val, h⟩ : Fin 100000) q ?_ ?_ ?_ ?_ ?_ ?_).trans
    (Cert.Sage.combine_ix2 true _ _ _ _ _ _ _ q).symm
  · exact fun k => msgblk0_apply V c t r k h
  · exact degblk0_apply V c t r 0 h
  · exact fun k => featblk0_apply V c t r k h
  · exact fun k => wlblk0_apply V c t k q
  · exact fun k => wrblk0_apply V c t k q
  · exact biasblk0_apply V c t 0 q

/-- The same at any index `j` of the stored block, the array index spelt as the output window's block places `j`. -/
theorem stored0_emb (c : Dev nD) (t : Fin cfg0.N) (j : S2000x64.Idx) :
    k0_pay1 (F := Ideal) (degblk0 V c t) (msgblk0 V c t) (featblk0 V c t) (wlblk0 V c t) (wrblk0 V c t) (biasblk0 V c t) j
      = layer0 V c (((cfg0.win 6).blk t).view.emb j) := by
  obtain ⟨r, q, rfl⟩ : ∃ (r : Fin 2000) (q : Fin 64), j = ix2 r q := ⟨j 0, j 1, eq_ix2 j⟩
  have ht := point0_lt t
  have h : 2000 * t.val + r.val < 100000 := by have := r.isLt; omega
  obtain ⟨-, -, -, -, -, -, -, -, -, -, -, -, e0, e1⟩ := idx0 t
  refine (stored0_apply V c t r q h).trans (congrArg (layer0 V c) (funext fun a => Fin.ext ?_))
  match a with
  | ⟨0, _⟩ => show 2000 * t.val + r.val = win0_6.index t (0 : Fin 2) * 2000 + 1 * r.val; omega
  | ⟨1, _⟩ => show q.val = win0_6.index t (1 : Fin 2) * 64 + 1 * q.val; omega

/-- What point `t` writes back is block `t` of the layer: the body's one store fills the whole staging block, and
    its loads read the whole input blocks. -/
theorem flushed0_eq (c : Dev nD) (t : Fin cfg0.N) :
    (dat0 (F := Ideal) V c).flushed 6 t = ((cfg0.win 6).blk t).view.read (Elt Ideal) (layer0 V c) := by
  show (cfg0.win 6).cut (grid0.coords t) ((dat0 V c).after 6 t) = _
  rw [after0_6]
  unfold out0_6
  rw [View.canon_unit_zero zeroPair]
  simp only [View.ld_unit_zero (S := S2000x64) zeroPair, View.ld_unit_zero (S := S2000x1) zeroPair,
    View.ld_unit_zero (S := S64x64) zeroPair, View.ld_unit_zero (S := S1x64) zeroPair]
  funext j
  exact stored0_emb V c t j

/-- An index of the output array is in point `t`'s block iff each coordinate is in the block's range on its axis. -/
theorem mem_blk0 (t : Fin cfg0.N) (i : S100000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v20).slice (win0_6.rect t)).set ↔ _
  rw [View.set_slice_whole, Rect.mem_set_unit]
  exact Iff.rfl

/-- Every index of the output array is in some point's block: row `i` is in the block of point `i / 2000`. -/
theorem cover0 (i : S100000x64.Idx) :
    ∃ t : Fin cfg0.N, (cfg0.win 6).flush t = true ∧ i ∈ ((cfg0.win 6).blk t).view.set := by
  have hi0 : (i 0).val < 100000 := idx2_lt0 i
  have hi1 : (i 1).val < 64 := idx2_lt1 i
  have hN : (i 0).val / 2000 < cfg0.N := by rw [show cfg0.N = 50 from N_0]; omega
  refine ⟨⟨(i 0).val / 2000, hN⟩, flush0_6 _, ?_⟩
  obtain ⟨-, -, -, -, -, -, -, -, -, -, -, -, e0, e1⟩ := idx0 ⟨(i 0).val / 2000, hN⟩
  rw [mem_blk0]
  intro a
  match a with
  | ⟨0, _⟩ =>
    show win0_6.index ⟨(i 0).val / 2000, hN⟩ (0 : Fin 2) * 2000 ≤ (i 0).val ∧ (i 0).val < win0_6.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win0_6.index ⟨(i 0).val / 2000, hN⟩ (1 : Fin 2) * 64 ≤ (i 1).val ∧ (i 1).val < win0_6.index ⟨(i 0).val / 2000, hN⟩ (1 : Fin 2) * 64 + 64
    rw [e1]; omega

/-- Region 0: the output array after the run is the rectified layer of the arrays at its entry. -/
theorem region0_arr (c : Dev nD) :
    (dat0 (F := Ideal) V c).arrAt 6 cfg0.N
      = Cert.Sage.combine true (V c main_v13) (V c main_v18) (V c main_arg0) (V c main_arg2) (V c main_arg3)
          (Cert.Sage.Pay.biasOf (V c main_v19)) :=
  (dat0 (F := Ideal) V c).arrAt_eq_of_cover 6 (layer0 V c) (fun t _ => flushed0_eq V c t) cover0

/-! ## Region 1 -/

/-- The block index of every window at grid point `t` of region 1: row block `t`, column block 0 for the three
    row-blocked inputs and the output; block (0, 0) for the two weight matrices and the bias row. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A grid point of region 1 is below 50. -/
theorem point1_lt (t : Fin cfg1.N) : t.val < 50 :=
  lt_of_lt_of_eq t.isLt (show cfg1.N = 50 from N_1)

/-- The six input blocks at point `t`, each at its literal shape. -/
abbrev msgblk1 (c : Dev nD) (t : Fin cfg1.N) : Vec Ideal S2000x64 .f32 := iblk1 V c 0 t
abbrev degblk1 (c : Dev nD) (t : Fin cfg1.N) : Vec Ideal S2000x1 .f32 := iblk1 V c 1 t
abbrev featblk1 (c : Dev nD) (t : Fin cfg1.N) : Vec Ideal S2000x64 .f32 := iblk1 V c 2 t
abbrev wlblk1 (c : Dev nD) (t : Fin cfg1.N) : Vec Ideal S64x64 .f32 := iblk1 V c 3 t
abbrev wrblk1 (c : Dev nD) (t : Fin cfg1.N) : Vec Ideal S64x64 .f32 := iblk1 V c 4 t
abbrev biasblk1 (c : Dev nD) (t : Fin cfg1.N) : Vec Ideal S1x64 .f32 := iblk1 V c 5 t

/-- Row `r` of the message block at point `t` is row `2000 t + r` of the message array. -/
theorem msgblk1_apply (c : Dev nD) (t : Fin cfg1.N) (r : Fin 2000) (k : Fin 64) (h : 2000 * t.val + r.val < 100000) :
    msgblk1 V c t (ix2 r k) = (V c main_v30 : S100000x64.Idx → EReal) (ix2 ⟨2000 * t.val + r.val, h⟩ k) := by
  obtain ⟨e0, e1, -⟩ := idx1 t
  show V c main_v30 (((cfg1.win 0).blk t).view.emb (ix2 r k)) = V c main_v30 _
  refine congrArg (V c main_v30) (funext fun a => Fin.ext ?_)
  match a with
  | ⟨0, _⟩ => show win1_0.index t (0 : Fin 2) * 2000 + 1 * r.val = 2000 * t.val + r.val; omega
  | ⟨1, _⟩ => show win1_0.index t (1 : Fin 2) * 64 + 1 * k.val = k.val; omega

/-- Row `r` of the degree block at point `t` is row `2000 t + r` of the degree column. -/
theorem degblk1_apply (c : Dev nD) (t : Fin cfg1.N) (r : Fin 2000) (z : Fin 1) (h : 2000 * t.val + r.val < 100000) :
    degblk1 V c t (ix2 r z) = (V c main_v35 : S100000x1.Idx → EReal) (ix2 ⟨2000 * t.val + r.val, h⟩ z) := by
  obtain ⟨-, -, e0, e1, -⟩ := idx1 t
  show V c main_v35 (((cfg1.win 1).blk t).view.emb (ix2 r z)) = V c main_v35 _
  refine congrArg (V c main_v35) (funext fun a => Fin.ext ?_)
  match a with
  | ⟨0, _⟩ => show win1_1.index t (0 : Fin 2) * 2000 + 1 * r.val = 2000 * t.val + r.val; omega
  | ⟨1, _⟩ => show win1_1.index t (1 : Fin 2) * 1 + 1 * z.val = z.val; omega

/-- Row `r` of the feature block at point `t` is row `2000 t + r` of the feature array (the output of region 0). -/
theorem featblk1_apply (c : Dev nD) (t : Fin cfg1.N) (r : Fin 2000) (k : Fin 64) (h : 2000 * t.val + r.val < 100000) :
    featblk1 V c t (ix2 r k) = (V c main_v20 : S100000x64.Idx → EReal) (ix2 ⟨2000 * t.val + r.val, h⟩ k) := by
  obtain ⟨-, -, -, -, e0, e1, -⟩ := idx1 t
  show V c main_v20 (((cfg1.win 2).blk t).view.emb (ix2 r k)) = V c main_v20 _
  refine congrArg (V c main_v20) (funext fun a => Fin.ext ?_)
  match a with
  | ⟨0, _⟩ => show win1_2.index t (0 : Fin 2) * 2000 + 1 * r.val = 2000 * t.val + r.val; omega
  | ⟨1, _⟩ => show win1_2.index t (1 : Fin 2) * 64 + 1 * k.val = k.val; omega

/-- The first weight block is the whole first weight matrix at every point. -/
theorem wlblk1_apply (c : Dev nD) (t : Fin cfg1.N) (k q : Fin 64) :
    wlblk1 V c t (ix2 k q) = (V c main_arg5 : S64x64.Idx → EReal) (ix2 k q) := by
  obtain ⟨-, -, -, -, -, -, e0, e1, -⟩ := idx1 t
  show V c main_arg5 (((cfg1.win 3).blk t).view.emb (ix2 k q)) = V c main_arg5 _
  refine congrArg (V c main_arg5) (funext fun a => Fin.ext ?_)
  match a with
  | ⟨0, _⟩ => show win1_3.index t (0 : Fin 2) * 64 + 1 * k.val = k.val; omega
  | ⟨1, _⟩ => show win1_3.index t (1 : Fin 2) * 64 + 1 * q.val = q.val; omega

/-- The second weight block is the whole second weight matrix at every point. -/
theorem wrblk1_apply (c : Dev nD) (t : Fin cfg1.N) (k q : Fin 64) :
    wrblk1 V c t (ix2 k q) = (V c main_arg6 : S64x64.Idx → EReal) (ix2 k q) := by
  obtain ⟨-, -, -, -, -, -, -, -, e0, e1, -⟩ := idx1 t
  show V c main_arg6 (((cfg1.win 4).blk t).view.emb (ix2 k q)) = V c main_arg6 _
  refine congrArg (V c main_arg6) (funext fun a => Fin.ext ?_)
  match a with
  | ⟨0, _⟩ => show win1_4.index t (0 : Fin 2) * 64 + 1 * k.val = k.val; omega
  | ⟨1, _⟩ => show win1_4.index t (1 : Fin 2) * 64 + 1 * q.val = q.val; omega

/-- The bias block is the whole bias row at every point. -/
theorem biasblk1_apply (c : Dev nD) (t : Fin cfg1.N) (z : Fin 1) (q : Fin 64) :
    biasblk1 V c t (ix2 z q) = (V c main_v36 : S1x64.Idx → EReal) (ix2 z q) := by
  obtain ⟨-, -, -, -, -, -, -, -, -, -, e0, e1, -⟩ := idx1 t
  show V c main_v36 (((cfg1.win 5).blk t).view.emb (ix2 z q)) = V c main_v36 _
  refine congrArg (V c main_v36) (funext fun a => Fin.ext ?_)
  match a with
  | ⟨0, _⟩ => show win1_5.index t (0 : Fin 2) * 1 + 1 * z.val = z.val; omega
  | ⟨1, _⟩ => show win1_5.index t (1 : Fin 2) * 64 + 1 * q.val = q.val; omega

/-- The rectified layer of the arrays region 1 finds. -/
abbrev layer1 (c : Dev nD) : S100000x64.Idx → EReal :=
  Cert.Sage.combine true (V c main_v30) (V c main_v35) (V c main_v20) (V c main_arg5) (V c main_arg6)
    (Cert.Sage.Pay.biasOf (V c main_v36))

/-- Entry `(r, q)` of what point `t` stores is the layer's entry at row `2000 t + r`: the stored block is the layer
    at 2000 rows of the input blocks, which agree with their arrays along row `2000 t + r` and column `q`. -/
theorem stored1_apply (c : Dev nD) (t : Fin cfg1.N) (r : Fin 2000) (q : Fin 64) (h : 2000 * t.val + r.val < 100000) :
    k1_pay1 (F := Ideal) (degblk1 V c t) (msgblk1 V c t) (featblk1 V c t) (wlblk1 V c t) (wrblk1 V c t) (biasblk1 V c t) (ix2 r q)
      = layer1 V c (ix2 ⟨2000 * t.val + r.val, h⟩ q) := by
  refine (Cert.Sage.Pay.pay1_apply _ _ _ _ _ _ r q).trans ?_
  refine (Cert.Sage.entry_congr true r (⟨2000 * t.val + r.val, h⟩ : Fin 100000) q ?_ ?_ ?_ ?_ ?_ ?_).trans
    (Cert.Sage.combine_ix2 true _ _ _ _ _ _ _ q).symm
  · exact fun k => msgblk1_apply V c t r k h
  · exact degblk1_apply V c t r 0 h
  · exact fun k => featblk1_apply V c t r k h
  · exact fun k => wlblk1_apply V c t k q
  · exact fun k => wrblk1_apply V c t k q
  · exact biasblk1_apply V c t 0 q

/-- The same at any index `j` of the stored block, the array index spelt as the output window's block places `j`. -/
theorem stored1_emb (c : Dev nD) (t : Fin cfg1.N) (j : S2000x64.Idx) :
    k1_pay1 (F := Ideal) (degblk1 V c t) (msgblk1 V c t) (featblk1 V c t) (wlblk1 V c t) (wrblk1 V c t) (biasblk1 V c t) j
      = layer1 V c (((cfg1.win 6).blk t).view.emb j) := by
  obtain ⟨r, q, rfl⟩ : ∃ (r : Fin 2000) (q : Fin 64), j = ix2 r q := ⟨j 0, j 1, eq_ix2 j⟩
  have ht := point1_lt t
  have h : 2000 * t.val + r.val < 100000 := by have := r.isLt; omega
  obtain ⟨-, -, -, -, -, -, -, -, -, -, -, -, e0, e1⟩ := idx1 t
  refine (stored1_apply V c t r q h).trans (congrArg (layer1 V c) (funext fun a => Fin.ext ?_))
  match a with
  | ⟨0, _⟩ => show 2000 * t.val + r.val = win1_6.index t (0 : Fin 2) * 2000 + 1 * r.val; omega
  | ⟨1, _⟩ => show q.val = win1_6.index t (1 : Fin 2) * 64 + 1 * q.val; omega

/-- What point `t` writes back is block `t` of the layer. -/
theorem flushed1_eq (c : Dev nD) (t : Fin cfg1.N) :
    (dat1 (F := Ideal) V c).flushed 6 t = ((cfg1.win 6).blk t).view.read (Elt Ideal) (layer1 V c) := by
  show (cfg1.win 6).cut (grid1.coords t) ((dat1 V c).after 6 t) = _
  rw [after1_6]
  unfold out1_6
  rw [View.canon_unit_zero zeroPair]
  simp only [View.ld_unit_zero (S := S2000x64) zeroPair, View.ld_unit_zero (S := S2000x1) zeroPair,
    View.ld_unit_zero (S := S64x64) zeroPair, View.ld_unit_zero (S := S1x64) zeroPair]
  funext j
  exact stored1_emb V c t j

/-- An index of the output array is in point `t`'s block iff each coordinate is in the block's range on its axis. -/
theorem mem_blk1 (t : Fin cfg1.N) (i : S100000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v37).slice (win1_6.rect t)).set ↔ _
  rw [View.set_slice_whole, Rect.mem_set_unit]
  exact Iff.rfl

/-- Every index of the output array is in some point's block: row `i` is in the block of point `i / 2000`. -/
theorem cover1 (i : S100000x64.Idx) :
    ∃ t : Fin cfg1.N, (cfg1.win 6).flush t = true ∧ i ∈ ((cfg1.win 6).blk t).view.set := by
  have hi0 : (i 0).val < 100000 := idx2_lt0 i
  have hi1 : (i 1).val < 64 := idx2_lt1 i
  have hN : (i 0).val / 2000 < cfg1.N := by rw [show cfg1.N = 50 from N_1]; omega
  refine ⟨⟨(i 0).val / 2000, hN⟩, flush1_6 _, ?_⟩
  obtain ⟨-, -, -, -, -, -, -, -, -, -, -, -, e0, e1⟩ := idx1 ⟨(i 0).val / 2000, hN⟩
  rw [mem_blk1]
  intro a
  match a with
  | ⟨0, _⟩ =>
    show win1_6.index ⟨(i 0).val / 2000, hN⟩ (0 : Fin 2) * 2000 ≤ (i 0).val ∧ (i 0).val < win1_6.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, hN⟩ (1 : Fin 2) * 64 ≤ (i 1).val ∧ (i 1).val < win1_6.index ⟨(i 0).val / 2000, hN⟩ (1 : Fin 2) * 64 + 64
    rw [e1]; omega

/-- Region 1: the output array after the run is the rectified layer of the arrays at its entry. -/
theorem region1_arr (c : Dev nD) :
    (dat1 (F := Ideal) V c).arrAt 6 cfg1.N
      = Cert.Sage.combine true (V c main_v30) (V c main_v35) (V c main_v20) (V c main_arg5) (V c main_arg6)
          (Cert.Sage.Pay.biasOf (V c main_v36)) :=
  (dat1 (F := Ideal) V c).arrAt_eq_of_cover 6 (layer1 V c) (fun t _ => flushed1_eq V c t) cover1

end Cert.Sage.Region

end
-- ==== Proof.Region2.lean ====
/-
  What the last region leaves in its output array.

  The region runs its body at 50 grid points; point `t` reads rows `2000 t … 2000 t + 1999` of the message array, the
  degree column and the feature array, the whole of both weight matrices and of the bias row, and writes rows
  `2000 t … 2000 t + 1999` of the output array.  The blocks written are disjoint and cover the output, and entry `(r, q)`
  of the block written at point `t` is the layer's entry, without rectifier, at row `2000 t + r` of the whole arrays.
-/
import proofs.«171853_j26731876451057_1_alg».proof.Proof.Gen.KernelIdeal.Frame
import proofs.«171853_j26731876451057_1_alg».proof.Proof.Payload
import Idealize.ShloMosaic.Lib.Pipeline.Value

set_option maxRecDepth 16384

noncomputable section

namespace Cert.Sage.Region2

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The region's grid has 50 points. -/
theorem N2 : cfg2.N = 50 := by decide

/-- A store or load at offsets `(0, 0)` starts at the block's origin. -/
theorem hz : (![0, 0] : Fin 2 → Nat) = fun _ => 0 := funext fun a => by fin_cases a <;> rfl

/-- The printed index maps, decided over the grid: at point `t` the three row-blocked inputs and the output sit at
    block `(t, 0)`, the two weight matrices and the bias row at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The six input blocks at point `t`, each at its literal type. -/
abbrev msgblk (c : Dev nD) (t : Fin cfg2.N) : Vec Ideal S2000x64 .f32 := iblk2 V c 0 t
abbrev degblk (c : Dev nD) (t : Fin cfg2.N) : Vec Ideal S2000x1 .f32 := iblk2 V c 1 t
abbrev featblk (c : Dev nD) (t : Fin cfg2.N) : Vec Ideal S2000x64 .f32 := iblk2 V c 2 t
abbrev wlblk (c : Dev nD) (t : Fin cfg2.N) : Vec Ideal S64x64 .f32 := iblk2 V c 3 t
abbrev wrblk (c : Dev nD) (t : Fin cfg2.N) : Vec Ideal S64x64 .f32 := iblk2 V c 4 t
abbrev biasblk (c : Dev nD) (t : Fin cfg2.N) : Vec Ideal S1x64 .f32 := iblk2 V c 5 t

/-- Row `r` of the message block at point `t` is row `2000 t + r` of the message array. -/
theorem msgblk_apply (c : Dev nD) (t : Fin cfg2.N) (r : Fin 2000) (k : Fin 64) (h : 2000 * t.val + r.val < 100000) :
    msgblk V c t (ix2 r k) = (V c main_v47 : S100000x64.Idx → EReal) (ix2 ⟨2000 * t.val + r.val, h⟩ k) := by
  obtain ⟨e0, e1, -⟩ := idx_facts t
  show V c main_v47 (((cfg2.win 0).blk t).view.emb (ix2 r k)) = V c main_v47 _
  refine congrArg (V c main_v47) (funext fun a => Fin.ext ?_)
  match a with
  | ⟨0, _⟩ => show win2_0.index t (0 : Fin 2) * 2000 + 1 * r.val = 2000 * t.val + r.val; omega
  | ⟨1, _⟩ => show win2_0.index t (1 : Fin 2) * 64 + 1 * k.val = k.val; omega

/-- Row `r` of the degree block at point `t` is row `2000 t + r` of the degree column. -/
theorem degblk_apply (c : Dev nD) (t : Fin cfg2.N) (r : Fin 2000) (h : 2000 * t.val + r.val < 100000) :
    degblk V c t (ix2 r (0 : Fin 1)) = (V c main_v52 : S100000x1.Idx → EReal) (ix2 ⟨2000 * t.val + r.val, h⟩ (0 : Fin 1)) := by
  obtain ⟨-, -, e0, e1, -⟩ := idx_facts t
  show V c main_v52 (((cfg2.win 1).blk t).view.emb (ix2 r (0 : Fin 1))) = V c main_v52 _
  refine congrArg (V c main_v52) (funext fun a => Fin.ext ?_)
  match a with
  | ⟨0, _⟩ => show win2_1.index t (0 : Fin 2) * 2000 + 1 * r.val = 2000 * t.val + r.val; omega
  | ⟨1, _⟩ => show win2_1.index t (1 : Fin 2) * 1 + 1 * 0 = 0; omega

/-- Row `r` of the feature block at point `t` is row `2000 t + r` of the feature array. -/
theorem featblk_apply (c : Dev nD) (t : Fin cfg2.N) (r : Fin 2000) (k : Fin 64) (h : 2000 * t.val + r.val < 100000) :
    featblk V c t (ix2 r k) = (V c main_v37 : S100000x64.Idx → EReal) (ix2 ⟨2000 * t.val + r.val, h⟩ k) := by
  obtain ⟨-, -, -, -, e0, e1, -⟩ := idx_facts t
  show V c main_v37 (((cfg2.win 2).blk t).view.emb (ix2 r k)) = V c main_v37 _
  refine congrArg (V c main_v37) (funext fun a => Fin.ext ?_)
  match a with
  | ⟨0, _⟩ => show win2_2.index t (0 : Fin 2) * 2000 + 1 * r.val = 2000 * t.val + r.val; omega
  | ⟨1, _⟩ => show win2_2.index t (1 : Fin 2) * 64 + 1 * k.val = k.val; omega

/-- The first weight block is the whole first weight matrix at every point. -/
theorem wlblk_apply (c : Dev nD) (t : Fin cfg2.N) (k q : Fin 64) :
    wlblk V c t (ix2 k q) = (V c main_arg8 : S64x64.Idx → EReal) (ix2 k q) := by
  obtain ⟨-, -, -, -, -, -, e0, e1, -⟩ := idx_facts t
  show V c main_arg8 (((cfg2.win 3).blk t).view.emb (ix2 k q)) = V c main_arg8 _
  refine congrArg (V c main_arg8) (funext fun a => Fin.ext ?_)
  match a with
  | ⟨0, _⟩ => show win2_3.index t (0 : Fin 2) * 64 + 1 * k.val = k.val; omega
  | ⟨1, _⟩ => show win2_3.index t (1 : Fin 2) * 64 + 1 * q.val = q.val; omega

/-- The second weight block is the whole second weight matrix at every point. -/
theorem wrblk_apply (c : Dev nD) (t : Fin cfg2.N) (k q : Fin 64) :
    wrblk V c t (ix2 k q) = (V c main_arg9 : S64x64.Idx → EReal) (ix2 k q) := by
  obtain ⟨-, -, -, -, -, -, -, -, e0, e1, -⟩ := idx_facts t
  show V c main_arg9 (((cfg2.win 4).blk t).view.emb (ix2 k q)) = V c main_arg9 _
  refine congrArg (V c main_arg9) (funext fun a => Fin.ext ?_)
  match a with
  | ⟨0, _⟩ => show win2_4.index t (0 : Fin 2) * 64 + 1 * k.val = k.val; omega
  | ⟨1, _⟩ => show win2_4.index t (1 : Fin 2) * 64 + 1 * q.val = q.val; omega

/-- The bias block is the whole bias row at every point. -/
theorem biasblk_apply (c : Dev nD) (t : Fin cfg2.N) (q : Fin 64) :
    Cert.Sage.Pay.biasOf (biasblk V c t) (ix1 q) = Cert.Sage.Pay.biasOf (V c main_v53) (ix1 q) := by
  obtain ⟨-, -, -, -, -, -, -, -, -, -, e0, e1, -⟩ := idx_facts t
  show V c main_v53 (((cfg2.win 5).blk t).view.emb (ix2 (0 : Fin 1) q)) = V c main_v53 _
  refine congrArg (V c main_v53) (funext fun a => Fin.ext ?_)
  match a with
  | ⟨0, _⟩ => show win2_5.index t (0 : Fin 2) * 1 + 1 * 0 = 0; omega
  | ⟨1, _⟩ => show win2_5.index t (1 : Fin 2) * 64 + 1 * q.val = q.val; omega

/-- What the region's output array holds in the end: the layer without rectifier of the arrays at the region's entry. -/
abbrev G (c : Dev nD) : S100000x64.Idx → EReal :=
  Cert.Sage.combine false (V c main_v47) (V c main_v52) (V c main_v37) (V c main_arg8) (V c main_arg9)
    (Cert.Sage.Pay.biasOf (V c main_v53))

/-- Entry `(r, q)` of the block stored at point `t` is the layer's entry at row `2000 t + r` of the whole arrays: the
    body's stored value is the layer's entry of the 2000-row blocks, and that entry reads row `r` of each row-blocked
    input, which is row `2000 t + r` of its array, and the weights and the bias as they are. -/
theorem block_entry (c : Dev nD) (t : Fin cfg2.N) (r : Fin 2000) (q : Fin 64) (h : 2000 * t.val + r.val < 100000) :
    k2_pay1 (F := Ideal) (degblk V c t) (msgblk V c t) (featblk V c t) (wlblk V c t) (wrblk V c t) (biasblk V c t) (ix2 r q)
      = G V c (ix2 ⟨2000 * t.val + r.val, h⟩ q) := by
  refine (Cert.Sage.Pay.pay2_apply _ _ _ _ _ _ r q).trans ?_
  refine (Cert.Sage.entry_congr false r (⟨2000 * t.val + r.val, h⟩ : Fin 100000) q
    (fun k => msgblk_apply V c t r k h) (degblk_apply V c t r h) (fun k => featblk_apply V c t r k h)
    (fun k => wlblk_apply V c t k q) (fun k => wrblk_apply V c t k q) (biasblk_apply V c t q)).trans ?_
  exact (Cert.Sage.combine_ix2 false _ _ _ _ _ _ _ q).symm

/-- What point `t` writes back is block `t` of the layer's array. -/
theorem flushed_eq (c : Dev nD) (t : Fin cfg2.N) :
    (dat2 (F := Ideal) V c).flushed 6 t = ((cfg2.win 6).blk t).view.read (Elt Ideal) (G V c) := by
  show (cfg2.win 6).cut (grid2.coords t) ((dat2 (F := Ideal) V c).after 6 t) = _
  rw [after2_6]
  unfold out2_6
  rw [View.canon_unit_zero hz]
  simp only [View.ld_unit_zero (S := S2000x64) hz, View.ld_unit_zero (S := S2000x1) hz, View.ld_unit_zero (S := S64x64) hz,
    View.ld_unit_zero (S := S1x64) hz]
  funext j
  -- an index of the block is a row `r` below 2000 and a column `q` below 64
  obtain ⟨r, q, rfl⟩ : ∃ (r : Fin 2000) (q : Fin 64), j = ix2 r q := ⟨j 0, j 1, eq_ix2 (n0 := 2000) (n1 := 64) j⟩
  have ht : t.val < 50 := Nat.lt_of_lt_of_eq t.isLt N2
  have h : 2000 * t.val + r.val < 100000 := by have := r.isLt; omega
  obtain ⟨-, -, -, -, -, -, -, -, -, -, -, -, e0, e1⟩ := idx_facts t
  -- the block's entry `(r, q)` sits at `(2000 t + r, q)` of the output array
  have hemb : ((cfg2.win 6).blk t).view.emb (ix2 r q) = (ix2 ⟨2000 * t.val + r.val, h⟩ q : S100000x64.Idx) :=
    funext fun a => Fin.ext (by
      match a with
      | ⟨0, _⟩ => show win2_6.index t (0 : Fin 2) * 2000 + 1 * r.val = 2000 * t.val + r.val; omega
      | ⟨1, _⟩ => show win2_6.index t (1 : Fin 2) * 64 + 1 * q.val = q.val; omega)
  exact (block_entry V c t r q h).trans (congrArg (G V c) hemb.symm)

/-- An index of the output array is in point `t`'s block iff each coordinate is in the block's range on its axis. -/
theorem mem_blk (t : Fin cfg2.N) (i : S100000x64.Idx) :
    i ∈ ((cfg2.win 6).blk t).view.set ↔ ∀ a : Fin 2, win2_6.index t a * S2000x64.size a ≤ (i a).val
      ∧ (i a).val < win2_6.index t a * S2000x64.size a + S2000x64.size a := by
  show i ∈ ((View.whole main_v54).slice (win2_6.rect t)).set ↔ _
  rw [View.set_slice_whole, Rect.mem_set_unit]
  exact Iff.rfl

/-- Every index of the output array is in some point's block: row `i` is written at point `i / 2000`. -/
theorem cover (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hlt : (i 0).val / 2000 < cfg2.N := Nat.lt_of_lt_of_eq (by omega) N2.symm
  refine ⟨⟨(i 0).val / 2000, hlt⟩, flush2_6 _, ?_⟩
  obtain ⟨-, -, -, -, -, -, -, -, -, -, -, -, e0, e1⟩ := idx_facts ⟨(i 0).val / 2000, hlt⟩
  rw [mem_blk]
  intro a
  match a with
  | ⟨0, _⟩ =>
    show win2_6.index ⟨(i 0).val / 2000, hlt⟩ (0 : Fin 2) * 2000 ≤ (i 0).val
      ∧ (i 0).val < win2_6.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win2_6.index ⟨(i 0).val / 2000, hlt⟩ (1 : Fin 2) * 64 ≤ (i 1).val
      ∧ (i 1).val < win2_6.index ⟨(i 0).val / 2000, hlt⟩ (1 : Fin 2) * 64 + 64
    rw [e1]
    omega

/-- Region 2: the output array after the run is the layer, without rectifier, of the arrays at its entry. -/
theorem region2_arr (c : Dev nD) :
    (dat2 (F := Ideal) V c).arrAt 6 cfg2.N
      = Cert.Sage.combine false (V c main_v47) (V c main_v52) (V c main_v37) (V c main_arg8) (V c main_arg9)
          (Cert.Sage.Pay.biasOf (V c main_v53)) := by
  exact (dat2 (F := Ideal) V c).arrAt_eq_of_cover 6 (G V c) (fun t _ => flushed_eq V c t) cover

end Cert.Sage.Region2

end
-- ==== Proof.KernelTerms.lean ====
/-
  The kernel program's host pieces, named: the source and destination rows of the edge list, the aggregation of a
  feature array along the edges, and the in-degree column as the program builds it.

  They are the reference's pieces but for the degree: here a one is added at each destination entry of a zero VECTOR of
  100000 entries, and the vector is then cast to a column.  The pieces are stated over the source and destination rows
  (`aggrOf`, `degOf`), which the program computes once and reads again before each later region, and then over the edge
  list itself (`aggr`, `deg`).
-/
import proofs.«171853_j26731876451057_1_alg».proof.KernelIdeal
import Idealize.ShloMosaic.PureOps.Ideal

noncomputable section

namespace Cert.Sage.K

open Idealize.ShloMosaic Cert.KernelIdeal

variable [Cert.KernelIdeal.Facts]
open Cert.KernelIdeal.Facts₀ Cert.KernelIdeal.Facts

/-- Row 0 of the edge list: the source node of each edge. -/
def src (ei : IVec S2x1600000 32) : IVec S1600000 32 :=
  shapeCast _ (extractStridedSlice S1x1600000 ![0, 0] ei slices_S2x1600000_S1x1600000_0_0) shapeCasts_S1x1600000_S1600000

/-- Row 1 of the edge list: the destination node of each edge. -/
def dst (ei : IVec S2x1600000 32) : IVec S1600000 32 :=
  shapeCast _ (extractStridedSlice S1x1600000 ![1, 0] ei slices_S2x1600000_S1x1600000_1_0) shapeCasts_S1x1600000_S1600000

/-- The destinations as a column. -/
def dstwOf (d : IVec S1600000 32) : IVec S1600000x1 32 :=
  broadcastInDim S1600000x1 ![0] bcast_S1600000_S1600000x1_0 d

/-- The source indices as a column, a negative one wrapped once by the number of nodes. -/
def srcwOf (s : IVec S1600000 32) : IVec S1600000x1 32 :=
  broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)

/-- The rows of `feat` the sources name, added up at the destination rows of a zero array. -/
def aggrOf (s d : IVec S1600000 32) (feat : FVec Ideal S100000x64 .f32) : FVec Ideal S100000x64 .f32 :=
  Host.scatterAdd scatter_S100000x64_S1600000x1_S1600000x64_1_0_0_1 (broadcastInDim S100000x64 ![] bcast_S_S100000x64 (constant S_ .f32 0x00000000#32)) (dstwOf d) (Host.gather gather_S100000x64_S1600000x1_S1600000x64_1_0_n_n_0_1_164 feat (srcwOf s))

/-- A one added at each edge's destination entry of a zero vector, then the vector cast to a column. -/
def degOf (d : IVec S1600000 32) : FVec Ideal S100000x1 .f32 :=
  shapeCast _ (Host.scatterAdd scatter_S100000_S1600000x1_S1600000_n_0_0_1 (broadcastInDim S100000 ![] bcast_S_S100000 (constant S_ .f32 0x00000000#32)) (dstwOf d) (broadcastInDim S1600000 ![] bcast_S_S1600000 (constant S_ .f32 0x3F800000#32))) shapeCasts_S100000_S100000x1

/-- The aggregation along the edges of an edge list. -/
def aggr (ei : IVec S2x1600000 32) (feat : FVec Ideal S100000x64 .f32) : FVec Ideal S100000x64 .f32 :=
  aggrOf (src ei) (dst ei) feat

/-- The in-degree column of an edge list. -/
def deg (ei : IVec S2x1600000 32) : FVec Ideal S100000x1 .f32 := degOf (dst ei)

/-- A bias row of 64 entries cast to one row of a 1 x 64 array. -/
def brow (b : FVec Ideal S64 .f32) : FVec Ideal S1x64 .f32 := shapeCast _ b shapeCasts_S64_S1x64

end Cert.Sage.K

end
-- ==== Proof.Fold.lean ====
/-
  The kernel program's result is the three-layer network of its arguments.

  The program is three regions among three stretches of host operations.  The first stretch reads the source and
  destination rows off the edge list, aggregates the input features along the edges, builds the degree column and casts
  the first bias to a row; the first region then leaves the rectified layer of these in its output array.  Each later
  stretch reads the source and destination rows again (no region and no later stretch writes them), aggregates the
  previous region's output, builds the same degree column and casts its own bias; each later region leaves its layer of
  these.  No stretch and no region writes an argument array.  Reading the last region's output array back through the
  boundaries therefore gives the network of the specification, over the kernel program's own aggregation and degree
  terms.
-/
import proofs.«171853_j26731876451057_1_alg».proof.Proof.Gen.KernelIdeal.Frame
import proofs.«171853_j26731876451057_1_alg».proof.Proof.RegionValue
import proofs.«171853_j26731876451057_1_alg».proof.Proof.Region2
import proofs.«171853_j26731876451057_1_alg».proof.Proof.KernelTerms
import Idealize.ShloMosaic.Lib.StableHlo.Run
import Idealize.ShloMosaic.Lib.Pipeline.Value

set_option maxRecDepth 16384

noncomputable section

namespace Cert.Sage.Fold

open Idealize.ShloMosaic Idealize.ShloMosaic.TcCoe Idealize.ShloMosaic.ValueIdx Idealize.SL.Sem Cert.KernelIdeal Cert.KernelIdeal.Gen
open Cert.Sage

/-- A bias of 64 entries cast to one row of a 1 x 64 array reads, at `(0, q)`, the bias at `q`. -/
theorem shapeCast_b_1b_apply {α : Type} {b : ℕ} (x : (⟨1, ![b]⟩ : Shape).Idx → α) (h : (⟨1, ![b]⟩ : Shape).ShapeCasts ⟨2, ![1, b]⟩)
    (q : Fin b) : shapeCast ⟨2, ![1, b]⟩ x h (ix2 (0 : Fin 1) q) = x (ix1 q) :=
  shapeCast_apply x h _ _ (by
    rw [Shape.rowMajor_val_two, Shape.rowMajor_val_one]
    show q.val = (0 : Fin 1).val * b + q.val
    simp)

/-- The bias read back off its row is the bias. -/
theorem biasOf_brow (b : FVec Ideal S64 .f32) : Pay.biasOf (K.brow b) = b := by
  funext j
  rw [eq_ix1 j]
  exact shapeCast_b_1b_apply b _ _

/-- A buffer no operation of a host stretch writes keeps its contents across the stretch. -/
local macro "kept_by " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## What each host stretch computes, from any contents `U` it starts at -/

section Stretches

variable (U : Valuation τ sig (Elt Ideal))

theorem s0_v1 : StableHlo.after (hostOps0 (F := Ideal)) U (Proc.devRef .tc main_v1) = K.src (U (Proc.devRef .tc main_arg1)) := by
  after_results_simp <;> rfl
theorem s0_v3 : StableHlo.after (hostOps0 (F := Ideal)) U (Proc.devRef .tc main_v3) = K.dst (U (Proc.devRef .tc main_arg1)) := by
  after_results_simp <;> rfl
theorem s0_v13 : StableHlo.after (hostOps0 (F := Ideal)) U (Proc.devRef .tc main_v13)
    = K.aggr (U (Proc.devRef .tc main_arg1)) (U (Proc.devRef .tc main_arg0)) := by
  after_results_simp <;> rfl
theorem s0_v18 : StableHlo.after (hostOps0 (F := Ideal)) U (Proc.devRef .tc main_v18) = K.deg (U (Proc.devRef .tc main_arg1)) := by
  after_results_simp <;> rfl
theorem s0_v19 : StableHlo.after (hostOps0 (F := Ideal)) U (Proc.devRef .tc main_v19) = K.brow (U (Proc.devRef .tc main_arg4)) := by
  after_results_simp <;> rfl

theorem s1_v30 : StableHlo.after (hostOps1 (F := Ideal)) U (Proc.devRef .tc main_v30)
    = K.aggrOf (U (Proc.devRef .tc main_v1)) (U (Proc.devRef .tc main_v3)) (U (Proc.devRef .tc main_v20)) := by
  after_results_simp <;> rfl
theorem s1_v35 : StableHlo.after (hostOps1 (F := Ideal)) U (Proc.devRef .tc main_v35) = K.degOf (U (Proc.devRef .tc main_v3)) := by
  after_results_simp <;> rfl
theorem s1_v36 : StableHlo.after (hostOps1 (F := Ideal)) U (Proc.devRef .tc main_v36) = K.brow (U (Proc.devRef .tc main_arg7)) := by
  after_results_simp <;> rfl

theorem s2_v47 : StableHlo.after (hostOps2 (F := Ideal)) U (Proc.devRef .tc main_v47)
    = K.aggrOf (U (Proc.devRef .tc main_v1)) (U (Proc.devRef .tc main_v3)) (U (Proc.devRef .tc main_v37)) := by
  after_results_simp <;> rfl
theorem s2_v52 : StableHlo.after (hostOps2 (F := Ideal)) U (Proc.devRef .tc main_v52) = K.degOf (U (Proc.devRef .tc main_v3)) := by
  after_results_simp <;> rfl
theorem s2_v53 : StableHlo.after (hostOps2 (F := Ideal)) U (Proc.devRef .tc main_v53) = K.brow (U (Proc.devRef .tc main_arg10)) := by
  after_results_simp <;> rfl

end Stretches

/-! ## The boundaries, read back to the arguments -/

section Chain

variable (m : (ℓ : Loc nD τ sig) → Buf (Elt Ideal) ℓ) (ρ : Dev nD → PrngReg) (c : Dev nD)

/-- The first layer's output, as the specification's layer of the arguments. -/
abbrev h1 : SN64.Idx → EReal :=
  layer (K.aggr (m ((c : Thread nD τ).loc main_arg1))) (K.deg (m ((c : Thread nD τ).loc main_arg1))) true (m ((c : Thread nD τ).loc main_arg0)) (m ((c : Thread nD τ).loc main_arg2)) (m ((c : Thread nD τ).loc main_arg3)) (m ((c : Thread nD τ).loc main_arg4))
/-- The second layer's output. -/
abbrev h2 : SN64.Idx → EReal :=
  layer (K.aggr (m ((c : Thread nD τ).loc main_arg1))) (K.deg (m ((c : Thread nD τ).loc main_arg1))) true (h1 m c) (m ((c : Thread nD τ).loc main_arg5)) (m ((c : Thread nD τ).loc main_arg6)) (m ((c : Thread nD τ).loc main_arg7))

/-! ### Entry of region 0: after the first stretch -/

theorem V1_arg0 : V1 m ρ c main_arg0 = (m ((c : Thread nD τ).loc main_arg0)) := by
  show StableHlo.after hostOps0 (W0 m ρ c) (Proc.devRef .tc main_arg0) = _
  exact (by kept_by hostOps0 : StableHlo.after hostOps0 (W0 m ρ c) (Proc.devRef .tc main_arg0) = W0 m ρ c (Proc.devRef .tc main_arg0)).trans rfl
theorem V1_arg2 : V1 m ρ c main_arg2 = (m ((c : Thread nD τ).loc main_arg2)) := by
  show StableHlo.after hostOps0 (W0 m ρ c) (Proc.devRef .tc main_arg2) = _
  exact (by kept_by hostOps0 : StableHlo.after hostOps0 (W0 m ρ c) (Proc.devRef .tc main_arg2) = W0 m ρ c (Proc.devRef .tc main_arg2)).trans rfl
theorem V1_arg3 : V1 m ρ c main_arg3 = (m ((c : Thread nD τ).loc main_arg3)) := by
  show StableHlo.after hostOps0 (W0 m ρ c) (Proc.devRef .tc main_arg3) = _
  exact (by kept_by hostOps0 : StableHlo.after hostOps0 (W0 m ρ c) (Proc.devRef .tc main_arg3) = W0 m ρ c (Proc.devRef .tc main_arg3)).trans rfl
theorem V1_v13 : V1 m ρ c main_v13 = K.aggr (m ((c : Thread nD τ).loc main_arg1)) (m ((c : Thread nD τ).loc main_arg0)) := s0_v13 (W0 m ρ c)
theorem V1_v18 : V1 m ρ c main_v18 = K.deg (m ((c : Thread nD τ).loc main_arg1)) := s0_v18 (W0 m ρ c)
theorem V1_v19 : V1 m ρ c main_v19 = K.brow (m ((c : Thread nD τ).loc main_arg4)) := s0_v19 (W0 m ρ c)

/-- Region 0 leaves the first layer's output. -/
theorem W2_v20 : W2 m ρ c (Proc.devRef .tc main_v20) = h1 m c := by
  refine (W2_arr m ρ c 6).trans ((Region.region0_arr (V1 m ρ) c).trans ?_)
  rw [V1_v13, V1_v18, V1_arg0, V1_arg2, V1_arg3, V1_v19, biasOf_brow]
  rfl

/-! ### Exit of region 0: the rows and the later arguments are as the first stretch left them -/

theorem W2_v1 : W2 m ρ c (Proc.devRef .tc main_v1) = K.src (m ((c : Thread nD τ).loc main_arg1)) :=
  (W2_of_ne m ρ c main_v1 (by decide)).trans (s0_v1 (W0 m ρ c))
theorem W2_v3 : W2 m ρ c (Proc.devRef .tc main_v3) = K.dst (m ((c : Thread nD τ).loc main_arg1)) :=
  (W2_of_ne m ρ c main_v3 (by decide)).trans (s0_v3 (W0 m ρ c))
theorem W2_arg5 : W2 m ρ c (Proc.devRef .tc main_arg5) = (m ((c : Thread nD τ).loc main_arg5)) := by
  refine (W2_of_ne m ρ c main_arg5 (by decide)).trans ?_
  show StableHlo.after hostOps0 (W0 m ρ c) (Proc.devRef .tc main_arg5) = W0 m ρ c (Proc.devRef .tc main_arg5)
  kept_by hostOps0
theorem W2_arg6 : W2 m ρ c (Proc.devRef .tc main_arg6) = (m ((c : Thread nD τ).loc main_arg6)) := by
  refine (W2_of_ne m ρ c main_arg6 (by decide)).trans ?_
  show StableHlo.after hostOps0 (W0 m ρ c) (Proc.devRef .tc main_arg6) = W0 m ρ c (Proc.devRef .tc main_arg6)
  kept_by hostOps0
theorem W2_arg7 : W2 m ρ c (Proc.devRef .tc main_arg7) = (m ((c : Thread nD τ).loc main_arg7)) := by
  refine (W2_of_ne m ρ c main_arg7 (by decide)).trans ?_
  show StableHlo.after hostOps0 (W0 m ρ c) (Proc.devRef .tc main_arg7) = W0 m ρ c (Proc.devRef .tc main_arg7)
  kept_by hostOps0
theorem W2_arg8 : W2 m ρ c (Proc.devRef .tc main_arg8) = (m ((c : Thread nD τ).loc main_arg8)) := by
  refine (W2_of_ne m ρ c main_arg8 (by decide)).trans ?_
  show StableHlo.after hostOps0 (W0 m ρ c) (Proc.devRef .tc main_arg8) = W0 m ρ c (Proc.devRef .tc main_arg8)
  kept_by hostOps0
theorem W2_arg9 : W2 m ρ c (Proc.devRef .tc main_arg9) = (m ((c : Thread nD τ).loc main_arg9)) := by
  refine (W2_of_ne m ρ c main_arg9 (by decide)).trans ?_
  show StableHlo.after hostOps0 (W0 m ρ c) (Proc.devRef .tc main_arg9) = W0 m ρ c (Proc.devRef .tc main_arg9)
  kept_by hostOps0
theorem W2_arg10 : W2 m ρ c (Proc.devRef .tc main_arg10) = (m ((c : Thread nD τ).loc main_arg10)) := by
  refine (W2_of_ne m ρ c main_arg10 (by decide)).trans ?_
  show StableHlo.after hostOps0 (W0 m ρ c) (Proc.devRef .tc main_arg10) = W0 m ρ c (Proc.devRef .tc main_arg10)
  kept_by hostOps0

/-! ### Entry of region 1: after the second stretch -/

theorem V3_v30 : V3 m ρ c main_v30 = K.aggr (m ((c : Thread nD τ).loc main_arg1)) (h1 m c) := by
  refine (s1_v30 (W2 m ρ c)).trans ?_
  rw [W2_v1, W2_v3, W2_v20]
  rfl
theorem V3_v35 : V3 m ρ c main_v35 = K.deg (m ((c : Thread nD τ).loc main_arg1)) := by
  refine (s1_v35 (W2 m ρ c)).trans ?_
  rw [W2_v3]
  rfl
theorem V3_v36 : V3 m ρ c main_v36 = K.brow (m ((c : Thread nD τ).loc main_arg7)) := by
  refine (s1_v36 (W2 m ρ c)).trans ?_
  rw [W2_arg7]
theorem V3_v20 : V3 m ρ c main_v20 = h1 m c := by
  refine Eq.trans ?_ (W2_v20 m ρ c)
  show StableHlo.after hostOps1 (W2 m ρ c) (Proc.devRef .tc main_v20) = W2 m ρ c (Proc.devRef .tc main_v20)
  kept_by hostOps1
theorem V3_arg5 : V3 m ρ c main_arg5 = (m ((c : Thread nD τ).loc main_arg5)) := by
  refine Eq.trans ?_ (W2_arg5 m ρ c)
  show StableHlo.after hostOps1 (W2 m ρ c) (Proc.devRef .tc main_arg5) = W2 m ρ c (Proc.devRef .tc main_arg5)
  kept_by hostOps1
theorem V3_arg6 : V3 m ρ c main_arg6 = (m ((c : Thread nD τ).loc main_arg6)) := by
  refine Eq.trans ?_ (W2_arg6 m ρ c)
  show StableHlo.after hostOps1 (W2 m ρ c) (Proc.devRef .tc main_arg6) = W2 m ρ c (Proc.devRef .tc main_arg6)
  kept_by hostOps1

/-- Region 1 leaves the second layer's output. -/
theorem W4_v37 : W4 m ρ c (Proc.devRef .tc main_v37) = h2 m c := by
  refine (W4_arr m ρ c 6).trans ((Region.region1_arr (V3 m ρ) c).trans ?_)
  rw [V3_v30, V3_v35, V3_v20, V3_arg5, V3_arg6, V3_v36, biasOf_brow]
  rfl

/-! ### Exit of region 1 -/

theorem W4_v1 : W4 m ρ c (Proc.devRef .tc main_v1) = K.src (m ((c : Thread nD τ).loc main_arg1)) := by
  refine (W4_of_ne m ρ c main_v1 (by decide)).trans (Eq.trans ?_ (W2_v1 m ρ c))
  show StableHlo.after hostOps1 (W2 m ρ c) (Proc.devRef .tc main_v1) = W2 m ρ c (Proc.devRef .tc main_v1)
  kept_by hostOps1
theorem W4_v3 : W4 m ρ c (Proc.devRef .tc main_v3) = K.dst (m ((c : Thread nD τ).loc main_arg1)) := by
  refine (W4_of_ne m ρ c main_v3 (by decide)).trans (Eq.trans ?_ (W2_v3 m ρ c))
  show StableHlo.after hostOps1 (W2 m ρ c) (Proc.devRef .tc main_v3) = W2 m ρ c (Proc.devRef .tc main_v3)
  kept_by hostOps1
theorem W4_arg8 : W4 m ρ c (Proc.devRef .tc main_arg8) = (m ((c : Thread nD τ).loc main_arg8)) := by
  refine (W4_of_ne m ρ c main_arg8 (by decide)).trans (Eq.trans ?_ (W2_arg8 m ρ c))
  show StableHlo.after hostOps1 (W2 m ρ c) (Proc.devRef .tc main_arg8) = W2 m ρ c (Proc.devRef .tc main_arg8)
  kept_by hostOps1
theorem W4_arg9 : W4 m ρ c (Proc.devRef .tc main_arg9) = (m ((c : Thread nD τ).loc main_arg9)) := by
  refine (W4_of_ne m ρ c main_arg9 (by decide)).trans (Eq.trans ?_ (W2_arg9 m ρ c))
  show StableHlo.after hostOps1 (W2 m ρ c) (Proc.devRef .tc main_arg9) = W2 m ρ c (Proc.devRef .tc main_arg9)
  kept_by hostOps1
theorem W4_arg10 : W4 m ρ c (Proc.devRef .tc main_arg10) = (m ((c : Thread nD τ).loc main_arg10)) := by
  refine (W4_of_ne m ρ c main_arg10 (by decide)).trans (Eq.trans ?_ (W2_arg10 m ρ c))
  show StableHlo.after hostOps1 (W2 m ρ c) (Proc.devRef .tc main_arg10) = W2 m ρ c (Proc.devRef .tc main_arg10)
  kept_by hostOps1

/-! ### Entry of region 2: after the third stretch -/

theorem V5_v47 : V5 m ρ c main_v47 = K.aggr (m ((c : Thread nD τ).loc main_arg1)) (h2 m c) := by
  refine (s2_v47 (W4 m ρ c)).trans ?_
  rw [W4_v1, W4_v3, W4_v37]
  rfl
theorem V5_v52 : V5 m ρ c main_v52 = K.deg (m ((c : Thread nD τ).loc main_arg1)) := by
  refine (s2_v52 (W4 m ρ c)).trans ?_
  rw [W4_v3]
  rfl
theorem V5_v53 : V5 m ρ c main_v53 = K.brow (m ((c : Thread nD τ).loc main_arg10)) := by
  refine (s2_v53 (W4 m ρ c)).trans ?_
  rw [W4_arg10]
theorem V5_v37 : V5 m ρ c main_v37 = h2 m c := by
  refine Eq.trans ?_ (W4_v37 m ρ c)
  show StableHlo.after hostOps2 (W4 m ρ c) (Proc.devRef .tc main_v37) = W4 m ρ c (Proc.devRef .tc main_v37)
  kept_by hostOps2
theorem V5_arg8 : V5 m ρ c main_arg8 = (m ((c : Thread nD τ).loc main_arg8)) := by
  refine Eq.trans ?_ (W4_arg8 m ρ c)
  show StableHlo.after hostOps2 (W4 m ρ c) (Proc.devRef .tc main_arg8) = W4 m ρ c (Proc.devRef .tc main_arg8)
  kept_by hostOps2
theorem V5_arg9 : V5 m ρ c main_arg9 = (m ((c : Thread nD τ).loc main_arg9)) := by
  refine Eq.trans ?_ (W4_arg9 m ρ c)
  show StableHlo.after hostOps2 (W4 m ρ c) (Proc.devRef .tc main_arg9) = W4 m ρ c (Proc.devRef .tc main_arg9)
  kept_by hostOps2

/-- The result array ends at the network of the arguments, over the kernel program's aggregation and degree terms. -/
theorem result_eq : W6 m ρ c (Proc.devRef .tc main_v54)
    = net (K.aggr (m ((c : Thread nD τ).loc main_arg1))) (K.deg (m ((c : Thread nD τ).loc main_arg1))) (m ((c : Thread nD τ).loc main_arg0))
        (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 6).trans ((Region2.region2_arr (V5 m ρ) c).trans ?_)
  rw [V5_v47, V5_v52, V5_v37, V5_arg8, V5_arg9, V5_v53, biasOf_brow]
  rfl

end Chain

end Cert.Sage.Fold

end
-- ==== Proof.RefTerms.lean ====
/-
  The reference program's pieces, named: the source and destination index columns read off the edge list, the
  aggregation of a feature array along the edges, the in-degree column, and one printed layer.

  `src` is row 0 of the edge list and `dstw` row 1 as a column; `srcw` wraps a negative source index once by the number
  of nodes before it is used to gather.  `aggr` gathers the rows of `feat` the wrapped sources name and adds each at its
  destination row of a zero array; `deg` adds a one at each destination row of a zero column.  `lin` is the layer before
  the rectifier, in the operations the program applies: the aggregate over the clipped degree, times `Wl`, plus the
  features times `Wr`, plus the bias spread over the rows.
-/
import proofs.«171853_j26731876451057_1_alg».proof.ReferenceIdeal
import Idealize.ShloMosaic.PureOps.Ideal

noncomputable section

namespace Cert.Sage.R

open Idealize.ShloMosaic Cert.ReferenceIdeal

variable [Cert.ReferenceIdeal.Facts]
open Cert.ReferenceIdeal.Facts₀ Cert.ReferenceIdeal.Facts

/-- Row 0 of the edge list: the source node of each edge. -/
def src (ei : IVec S2x1600000 32) : IVec S1600000 32 :=
  shapeCast _ (extractStridedSlice S1x1600000 ![0, 0] ei slices_S2x1600000_S1x1600000_0_0) shapeCasts_S1x1600000_S1600000

/-- Row 1 of the edge list as a column: the destination node of each edge. -/
def dstw (ei : IVec S2x1600000 32) : IVec S1600000x1 32 :=
  broadcastInDim S1600000x1 ![0] bcast_S1600000_S1600000x1_0 (shapeCast _ (extractStridedSlice S1x1600000 ![1, 0] ei slices_S2x1600000_S1x1600000_1_0) shapeCasts_S1x1600000_S1600000)

/-- The source indices as a column, a negative one wrapped once by the number of nodes. -/
def srcw (ei : IVec S2x1600000 32) : IVec S1600000x1 32 :=
  broadcastInDim S1600000x1 ![0] bcast_S1600000_S1600000x1_0 (select (cmpi .slt (src ei) (broadcastInDim S1600000 ![] bcast_S_S1600000 (constantI S_ 32 0#32))) (addi (src ei) (broadcastInDim S1600000 ![] bcast_S_S1600000 (constantI S_ 32 100000#32))) (src ei))

/-- The rows of `feat` the sources name, added up at the destination rows of a zero array. -/
def aggr (ei : IVec S2x1600000 32) (feat : FVec Ideal S100000x64 .f32) : FVec Ideal S100000x64 .f32 :=
  Host.scatterAdd scatter_S100000x64_S1600000x1_S1600000x64_1_0_0_1 (broadcastInDim S100000x64 ![] bcast_S_S100000x64 (constant S_ .f32 0x00000000#32)) (dstw ei) (Host.gather gather_S100000x64_S1600000x1_S1600000x64_1_0_n_n_0_1_164 feat (srcw ei))

/-- A one added at each edge's destination row of a zero column: the in-degrees. -/
def deg (ei : IVec S2x1600000 32) : FVec Ideal S100000x1 .f32 :=
  Host.scatterAdd scatter_S100000x1_S1600000x1_S1600000x1_1_0_0_1 (broadcastInDim S100000x1 ![] bcast_S_S100000x1 (constant S_ .f32 0x00000000#32)) (dstw ei) (broadcastInDim S1600000x1 ![] bcast_S_S1600000x1 (constant S_ .f32 0x3F800000#32))

/-- One layer before the rectifier, in the program's operations. -/
def lin (ei : IVec S2x1600000 32) (feat : FVec Ideal S100000x64 .f32) (Wl Wr : FVec Ideal S64x64 .f32) (b : FVec Ideal S64 .f32) :
    FVec Ideal S100000x64 .f32 :=
  addf (addf (Host.dotGeneral dot_S100000x64_S64x64_S100000x64_1_0_0_1_n_n none (Host.divf (aggr ei feat) (broadcastInDim S100000x64 ![0, 1] bcast_S100000x1_S100000x64_0_1 (maximumf (deg ei) (broadcastInDim S100000x1 ![] bcast_S_S100000x1 (constant S_ .f32 0x3F800000#32))))) Wl) (Host.dotGeneral dot_S100000x64_S64x64_S100000x64_1_0_0_1_n_n none feat Wr)) (broadcastInDim S100000x64 ![0, 1] bcast_S1x64_S100000x64_0_1 (broadcastInDim S1x64 ![1] bcast_S64_S1x64_1 b))

/-- The rectifier, in the program's operations. -/
def relu (v : FVec Ideal S100000x64 .f32) : FVec Ideal S100000x64 .f32 :=
  maximumf v (broadcastInDim S100000x64 ![] bcast_S_S100000x64 (constant S_ .f32 0x00000000#32))

end Cert.Sage.R

end
-- ==== Proof.RefLayer.lean ====
/-
  One layer of the reference program is the layer of the specification.

  The program divides the aggregate by the degree column clipped at one and spread over the 64 columns, multiplies by
  `Wl`, adds the features times `Wr`, and adds the bias spread over the rows.  Read at `(r, q)`: the host's matrix
  product is the plain sum over the contracted axis, the spread column at `(r, k)` is its entry of row `r`, the spread
  bias at `(r, q)` is its entry `q`; so the entry is the specification's.  The rectifier is the maximum with the zero
  array, entry by entry.
-/
import proofs.«171853_j26731876451057_1_alg».proof.Proof.RefTerms
import proofs.«171853_j26731876451057_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Sage.R

open Idealize.ShloMosaic Idealize.ShloMosaic.ValueIdx Cert.ReferenceIdeal

variable [Cert.ReferenceIdeal.Facts]
open Cert.ReferenceIdeal.Facts₀

/-! ## The matrix product's operand indices, one axis at a time

At result index `i` and contraction position `c` the left operand is read at row `i 0` and column `c`, the right one at
row `c` and column `i 1`: an axis that is not contracted takes its coordinate from the result, the contracted axis takes
the one coordinate of `c`. -/

/-- Left operand, axis 0 (not contracted): the result's row. -/
private theorem lhs_0 (i : S100000x64.Idx) (c : dot_S100000x64_S64x64_S100000x64_1_0_0_1_n_n.contr.Idx) :
    (dot_S100000x64_S64x64_S100000x64_1_0_0_1_n_n.lhsIdx i c 0).val = (i 0).val := by
  unfold DotDims.lhsIdx
  rw [dif_neg (show ¬(0 : Fin S100000x64.rank) ∈ dot_S100000x64_S64x64_S100000x64_1_0_0_1_n_n.lhsBatch from List.not_mem_nil),
    dif_pos (show (0 : Fin S100000x64.rank) ∈ dot_S100000x64_S64x64_S100000x64_1_0_0_1_n_n.lhsNonContracting from List.mem_singleton.mpr rfl)]
  rfl

/-- Left operand, axis 1 (the contracted one): the contraction position. -/
private theorem lhs_1 (i : S100000x64.Idx) (c : dot_S100000x64_S64x64_S100000x64_1_0_0_1_n_n.contr.Idx) :
    (dot_S100000x64_S64x64_S100000x64_1_0_0_1_n_n.lhsIdx i c 1).val = (c ⟨0, Nat.one_pos⟩).val :=
  dot_S100000x64_S64x64_S100000x64_1_0_0_1_n_n.lhsIdx_val_of_single rfl i c

/-- Right operand, axis 0 (the contracted one): the contraction position. -/
private theorem rhs_0 (i : S100000x64.Idx) (c : dot_S100000x64_S64x64_S100000x64_1_0_0_1_n_n.contr.Idx) :
    (dot_S100000x64_S64x64_S100000x64_1_0_0_1_n_n.rhsIdx i c 0).val = (c ⟨0, Nat.one_pos⟩).val :=
  dot_S100000x64_S64x64_S100000x64_1_0_0_1_n_n.rhsIdx_val_of_single rfl i c

/-- Right operand, axis 1 (not contracted): the result's column. -/
private theorem rhs_1 (i : S100000x64.Idx) (c : dot_S100000x64_S64x64_S100000x64_1_0_0_1_n_n.contr.Idx) :
    (dot_S100000x64_S64x64_S100000x64_1_0_0_1_n_n.rhsIdx i c 1).val = (i 1).val := by
  unfold DotDims.rhsIdx
  rw [dif_neg (show ¬(1 : Fin S64x64.rank) ∈ dot_S100000x64_S64x64_S100000x64_1_0_0_1_n_n.rhsBatch from List.not_mem_nil),
    dif_pos (show (1 : Fin S64x64.rank) ∈ dot_S100000x64_S64x64_S100000x64_1_0_0_1_n_n.rhsNonContracting from List.mem_singleton.mpr rfl)]
  rfl

/-- The matrix product at `(r, q)` is `∑ k, x[r,k] * W[k,q]`: over the extended reals it is the sum over the contraction
    positions, and a position of the one contracted axis of size 64 is its coordinate `k`. -/
private theorem dot_ix2 (x : FVec Ideal S100000x64 .f32) (W : FVec Ideal S64x64 .f32) (r : Fin 100000) (q : Fin 64) :
    Host.dotGeneral dot_S100000x64_S64x64_S100000x64_1_0_0_1_n_n none x W (ix2 r q) = ∑ k : Fin 64, x (ix2 r k) * W (ix2 k q) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r q) ((contrEquiv1 dot_S100000x64_S64x64_S100000x64_1_0_0_1_n_n 64 rfl rfl).symm k) = ix2 r k :=
    funext fun a => Fin.ext (by
      match a with
      | ⟨0, _⟩ => exact lhs_0 _ _
      | ⟨1, _⟩ => exact (lhs_1 _ _).trans hk)
  have er : dot_S100000x64_S64x64_S100000x64_1_0_0_1_n_n.rhsIdx (ix2 r q) ((contrEquiv1 dot_S100000x64_S64x64_S100000x64_1_0_0_1_n_n 64 rfl rfl).symm k) = ix2 k q :=
    funext fun a => Fin.ext (by
      match a with
      | ⟨0, _⟩ => exact (rhs_0 _ _).trans hk
      | ⟨1, _⟩ => exact rhs_1 _ _)
  rw [el, er]

/-! ## The spreads read at an index

A spread reads its operand at the result's coordinate on each axis it keeps, and at `0` on each operand axis of size one. -/

/-- A column spread over the 64 columns: at `(r, k)` its entry of row `r`. -/
private theorem spread_col (y : FVec Ideal S100000x1 .f32) (r : Fin 100000) (k : Fin 64) :
    broadcastInDim S100000x64 ![0, 1] bcast_S100000x1_S100000x64_0_1 y (ix2 r k) = y (ix2 r (0 : Fin 1)) :=
  broadcastInDim_apply _ bcast_S100000x1_S100000x64_0_1 y (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])

/-- A scalar spread over any shape: the scalar, everywhere (the operand has no axis to read). -/
private theorem spread_scalar {T : Shape} (h : S_.BroadcastsInDim T ![]) (x : FVec Ideal S_ .f32) (j : T.Idx) :
    broadcastInDim T ![] h x j = x ix0 :=
  broadcastInDim_apply _ h x j ix0 (fun a => a.elim0)

/-- The bias made a one-row array and spread over the rows: at `(r, q)` the one row's entry `(0, q)`, which is the
    bias's entry `q`. -/
private theorem spread_bias (b : FVec Ideal S64 .f32) (r : Fin 100000) (q : Fin 64) :
    broadcastInDim S100000x64 ![0, 1] bcast_S1x64_S100000x64_0_1 (broadcastInDim S1x64 ![1] bcast_S64_S1x64_1 b) (ix2 r q)
      = b (ix1 q) := by
  refine (broadcastInDim_apply _ bcast_S1x64_S100000x64_0_1 _ (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-! ## The entries -/

/-- The layer's operations applied to ANY aggregate `A` and degree column `D`, read at `(r, q)`: the two outer sums are
    the extended reals' sums, each product is the sum over `k`, the bias term is `b[q]`, and in the first product the left
    factor at `(r, k)` is `A[r,k]` divided by the maximum of `D[r,0]` and the literal one. Nothing about `A` and `D` is
    used. -/
private theorem lin_entry (A feat : FVec Ideal S100000x64 .f32) (D : FVec Ideal S100000x1 .f32) (Wl Wr : FVec Ideal S64x64 .f32)
    (b : FVec Ideal S64 .f32) (r : Fin 100000) (q : Fin 64) :
    addf (addf (Host.dotGeneral dot_S100000x64_S64x64_S100000x64_1_0_0_1_n_n none (Host.divf A (broadcastInDim S100000x64 ![0, 1] bcast_S100000x1_S100000x64_0_1
        (maximumf D (broadcastInDim S100000x1 ![] bcast_S_S100000x1 (constant S_ .f32 0x3F800000#32))))) Wl)
        (Host.dotGeneral dot_S100000x64_S64x64_S100000x64_1_0_0_1_n_n none feat Wr))
      (broadcastInDim S100000x64 ![0, 1] bcast_S1x64_S100000x64_0_1 (broadcastInDim S1x64 ![1] bcast_S64_S1x64_1 b)) (ix2 r q)
      = Cert.Sage.pre A D feat Wl Wr b r q := by
  unfold Cert.Sage.pre
  rw [addf_apply, addf_apply, dot_ix2, dot_ix2, spread_bias]
  refine congrArg (· + _ + _) ?_
  refine Finset.sum_congr rfl fun k _ => ?_
  refine congrArg (· * _) ?_
  show Ideal.div (A (ix2 r k)) _ = _
  rw [spread_col, maximumf_apply, spread_scalar]
  rfl

/-- The rectifier read at `(r, q)`: the maximum of the entry and the literal zero. -/
private theorem relu_entry (v : FVec Ideal S100000x64 .f32) (r : Fin 100000) (q : Fin 64) :
    maximumf v (broadcastInDim S100000x64 ![] bcast_S_S100000x64 (constant S_ .f32 0x00000000#32)) (ix2 r q)
      = max (v (ix2 r q)) Cert.Sage.lit0 := by
  rw [maximumf_apply, spread_scalar]
  rfl

/-- The specification's layer without rectifier at `(r, q)`, over ANY aggregation map and degree column: the entry
    `pre` of the aggregated features (the definitions unfold; the two coordinates of `(r, q)` are `r` and `q`). -/
private theorem layer_false_ix2 (ag : (Cert.Sage.SN64.Idx → EReal) → (Cert.Sage.SN64.Idx → EReal)) (dg : Cert.Sage.SN1.Idx → EReal)
    (feat : Cert.Sage.SN64.Idx → EReal) (Wl Wr : Cert.Sage.SW.Idx → EReal) (b : Cert.Sage.SB.Idx → EReal) (r : Fin 100000) (q : Fin 64) :
    Cert.Sage.layer ag dg false feat Wl Wr b (ix2 r q) = Cert.Sage.pre (ag feat) dg feat Wl Wr b r q := rfl

/-- The rectified one: the same entry clipped below at the literal zero. -/
private theorem layer_true_ix2 (ag : (Cert.Sage.SN64.Idx → EReal) → (Cert.Sage.SN64.Idx → EReal)) (dg : Cert.Sage.SN1.Idx → EReal)
    (feat : Cert.Sage.SN64.Idx → EReal) (Wl Wr : Cert.Sage.SW.Idx → EReal) (b : Cert.Sage.SB.Idx → EReal) (r : Fin 100000) (q : Fin 64) :
    Cert.Sage.layer ag dg true feat Wl Wr b (ix2 r q) = max (Cert.Sage.pre (ag feat) dg feat Wl Wr b r q) Cert.Sage.lit0 := rfl

/-- The layer without rectifier. -/
theorem lin_eq (ei : IVec S2x1600000 32) (feat : FVec Ideal S100000x64 .f32) (Wl Wr : FVec Ideal S64x64 .f32)
    (b : FVec Ideal S64 .f32) :
    lin ei feat Wl Wr b = Cert.Sage.layer (aggr ei) (deg ei) false feat Wl Wr b := by
  -- two arrays are equal when they agree at every pair of coordinates; the aggregate and the degree column enter only
  -- as two arrays `A` and `D`, whatever they are
  apply Cert.Sage.ext2
  intro r q
  unfold lin
  rw [layer_false_ix2]
  generalize aggr ei feat = A
  generalize deg ei = D
  exact lin_entry A feat D Wl Wr b r q

/-- The rectified layer. -/
theorem relu_lin_eq (ei : IVec S2x1600000 32) (feat : FVec Ideal S100000x64 .f32) (Wl Wr : FVec Ideal S64x64 .f32)
    (b : FVec Ideal S64 .f32) :
    relu (lin ei feat Wl Wr b) = Cert.Sage.layer (aggr ei) (deg ei) true feat Wl Wr b := by
  -- entry by entry: the maximum with zero of the unrectified layer's entry, which is the specification's rectified entry
  apply Cert.Sage.ext2
  intro r q
  unfold relu
  rw [relu_entry, lin_eq, layer_false_ix2, layer_true_ix2]

end Cert.Sage.R

end
-- ==== Proof.RefValue.lean ====
/-
  The reference program's result is the three-layer network of its arguments.

  The run of the reference ends with its result at one composed term of the arguments.  That term is three applications
  of the same layer, the first two followed by the rectifier, each aggregating its input along the same edges and
  dividing by the same degree column; with each printed layer equal to the layer of the specification, the result is the
  network of the specification over the reference's own aggregation and degree terms.
-/
import proofs.«171853_j26731876451057_1_alg».proof.Proof.Gen.ReferenceIdeal.Run
import proofs.«171853_j26731876451057_1_alg».proof.Proof.RefLayer

set_option maxRecDepth 16384

noncomputable section

namespace Cert.Sage.Ref

open Idealize.ShloMosaic Idealize.ShloMosaic.TcCoe Idealize.SL.Sem Cert.ReferenceIdeal
open Cert.Sage

variable (m : (ℓ : Loc nD τ sig) → Buf (Elt Ideal) ℓ)

/-- The run's result term is three nested layers in the program's operations. -/
theorem res_nested (c : Dev nD) :
    Cert.ReferenceIdeal.Value.res_out0 (F := Ideal) m c
      = R.lin (m ((c.tc : Thread nD τ).loc main_arg1))
          (R.relu (R.lin (m ((c.tc : Thread nD τ).loc main_arg1))
            (R.relu (R.lin (m ((c.tc : Thread nD τ).loc main_arg1)) (m ((c.tc : Thread nD τ).loc main_arg0))
              (m ((c.tc : Thread nD τ).loc main_arg2)) (m ((c.tc : Thread nD τ).loc main_arg3)) (m ((c.tc : Thread nD τ).loc main_arg4))))
            (m ((c.tc : Thread nD τ).loc main_arg5)) (m ((c.tc : Thread nD τ).loc main_arg6)) (m ((c.tc : Thread nD τ).loc main_arg7))))
          (m ((c.tc : Thread nD τ).loc main_arg8)) (m ((c.tc : Thread nD τ).loc main_arg9)) (m ((c.tc : Thread nD τ).loc main_arg10)) := by
  show Cert.ReferenceIdeal.Value.res_main_v77 (F := Ideal) m c = _
  unfold Cert.ReferenceIdeal.Value.res_main_v77 R.lin R.relu R.aggr R.deg R.dstw R.srcw R.src
  rfl

/-- The run's result is the network of the specification. -/
theorem res_eq (c : Dev nD) :
    Cert.ReferenceIdeal.Value.res_out0 (F := Ideal) m c
      = net (R.aggr (m ((c.tc : Thread nD τ).loc main_arg1))) (R.deg (m ((c.tc : Thread nD τ).loc main_arg1)))
          (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  rw [res_nested, R.relu_lin_eq, R.relu_lin_eq, R.lin_eq]
  rfl

end Cert.Sage.Ref

end
-- ==== Proof.DegColumn.lean ====
/-
  Adding updates into a vector and then casting it to a column is the same as adding them into the column.

  A scatter-add lands update `e` at the position the index array names for it, and drops it when that position lies
  outside the operand.  With one index per update and a vector operand of 100000 entries, update `e` lands at entry
  `idx[e, 0]`.  With a column operand [100000, 1] and updates [1600000, 1], update `(e, 0)` lands at `(idx[e, 0], 0)`.
  In both the update is kept exactly when `0 ≤ idx[e, 0] < 100000`, so `e ↦ (e, 0)` matches the updates that reach
  entry `r` of the vector with the updates that reach entry `(r, 0)` of the column, and the two sums agree term by term.
-/
import Idealize.ShloMosaic.PureOps.Ideal
import Idealize.ShloMosaic.Lib.ValueIdx

noncomputable section

namespace Cert.Sage.Deg

open Idealize.ShloMosaic Idealize.ShloMosaic.ValueIdx

abbrev SN : Shape := ⟨1, ![100000]⟩
abbrev SN1 : Shape := ⟨2, ![100000, 1]⟩
abbrev SE : Shape := ⟨1, ![1600000]⟩
abbrev SE1 : Shape := ⟨2, ![1600000, 1]⟩

/-- One index per update into a vector: no window axis, the operand's one axis named by the index. -/
def dRow : ScatterDims SN SE1 SE where
  updateWindowDims := []
  insertedWindowDims := [0]
  scatterDimsToOperandDims := [0]
  indexVectorDim := 1

/-- One index per update into a column: the updates' unit axis is the window over the operand's unit axis. -/
def dCol : ScatterDims SN1 SE1 SE1 where
  updateWindowDims := [1]
  insertedWindowDims := [0]
  scatterDimsToOperandDims := [0]
  indexVectorDim := 1

/-- An update lands at operand entry `i` exactly when, on every operand axis, the window's start plus the window
    coordinate is `i`'s coordinate: inside the operand the landing index is that sum axis by axis, and a sum equal to
    a coordinate of `i` is in range on its axis, so the update is not dropped. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro e a
      have h1 := congrArg Fin.val (congrFun e a)
      simp only at h1
      have := h a
      omega
    · intro e
      funext a
      apply Fin.ext
      have := e a
      have := h a
      simp only
      omega
  · rename_i h
    constructor
    · intro e; cases e
    · intro e
      exfalso; apply h; intro a
      have := e a
      have := (i a).isLt
      omega

/-- Vector operand: the operand's one axis is named by component 0 of the index vector, so update `e` starts at
    `idx[e, 0]`, read signed. -/
theorem dRow_start (e : Fin 1600000) (idx : IVec SE1 32) :
    dRow.start (ix1 e) idx 0 = (idx (ix2 e (0 : Fin 1))).toInt := by
  unfold ScatterDims.start
  rw [dif_pos (by decide)]
  congr 2
  funext b
  match b with
  | ⟨0, _⟩ => rfl
  | ⟨1, _⟩ => rfl

/-- Vector operand: its one axis is an inserted one, so the window coordinate there is 0. -/
theorem dRow_window (e : Fin 1600000) : dRow.window (ix1 e) 0 = 0 := by
  unfold ScatterDims.window
  rw [dif_neg (by decide)]

/-- Column operand, long axis: named by component 0 of the index vector, so update `(e, z)` starts at `idx[e, 0]`. -/
theorem dCol_start0 (e : Fin 1600000) (z : Fin 1) (idx : IVec SE1 32) :
    dCol.start (ix2 e z) idx 0 = (idx (ix2 e (0 : Fin 1))).toInt := by
  unfold ScatterDims.start
  rw [dif_pos (by decide)]
  congr 2
  funext b
  match b with
  | ⟨0, _⟩ => rfl
  | ⟨1, _⟩ => rfl

/-- Column operand, unit axis: no index component names it, so the start there is 0. -/
theorem dCol_start1 (e : Fin 1600000) (z : Fin 1) (idx : IVec SE1 32) :
    dCol.start (ix2 e z) idx 1 = 0 := by
  unfold ScatterDims.start
  rw [dif_neg (by decide)]

/-- Column operand, long axis: an inserted axis, window coordinate 0. -/
theorem dCol_window0 (e : Fin 1600000) (z : Fin 1) : dCol.window (ix2 e z) 0 = 0 := by
  unfold ScatterDims.window
  rw [dif_neg (by decide)]

/-- Column operand, unit axis: the window coordinate is the update's coordinate on its unit axis, which is 0 because
    that axis has one point. -/
theorem dCol_window1 (e : Fin 1600000) (z : Fin 1) : dCol.window (ix2 e z) 1 = 0 := by
  unfold ScatterDims.window
  rw [dif_pos (by decide)]
  have hz : z = 0 := Subsingleton.elim _ _
  subst hz
  rfl

/-- Update `e` reaches entry `r` of the vector exactly when `idx[e, 0] = r`. -/
theorem dRow_lands (e : Fin 1600000) (idx : IVec SE1 32) (r : Fin 100000) :
    dRow.resultIdx? (ix1 e) idx = some (ix1 r) ↔ (idx (ix2 e (0 : Fin 1))).toInt = (r.val : Int) := by
  rw [resultIdx?_eq_some_iff, Fin.forall_fin_one, dRow_start, dRow_window]
  simp only [Nat.cast_zero, add_zero]

/-- Update `(e, z)` reaches entry `(r, 0)` of the column exactly when `idx[e, 0] = r`: the condition on the unit
    axis reads `0 + 0 = 0`. -/
theorem dCol_lands (e : Fin 1600000) (z : Fin 1) (idx : IVec SE1 32) (r : Fin 100000) :
    dCol.resultIdx? (ix2 e z) idx = some (ix2 r (0 : Fin 1)) ↔ (idx (ix2 e (0 : Fin 1))).toInt = (r.val : Int) := by
  rw [resultIdx?_eq_some_iff, Fin.forall_fin_two, dCol_start0, dCol_start1, dCol_window0, dCol_window1]
  simp only [Nat.cast_zero, add_zero]
  constructor
  · intro h; exact h.1
  · intro h; exact ⟨h, rfl⟩

/-- The scatter-add into the column at `(r, 0)` is the scatter-add into the vector at `r`, for operands and updates that
    are the same numbers laid out as a column and as a vector. -/
theorem scatter_column (x : SN.Idx → EReal) (u : SE.Idx → EReal) (x' : SN1.Idx → EReal) (u' : SE1.Idx → EReal)
    (hx : ∀ r : Fin 100000, x' (ix2 r (0 : Fin 1)) = x (ix1 r)) (hu : ∀ e : Fin 1600000, u' (ix2 e (0 : Fin 1)) = u (ix1 e))
    (idx : IVec SE1 32) (r : Fin 100000) :
    Ideal.hostScatterAdd dCol x' idx u' (ix2 r (0 : Fin 1)) = Ideal.hostScatterAdd dRow x idx u (ix1 r) := by
  unfold Ideal.hostScatterAdd
  -- the leading terms are the same number by `hx`
  rw [hx r]
  refine congrArg (fun t => x (ix1 r) + t) ?_
  -- the two sums match under `(e, z) ↦ e`, with inverse `e ↦ (e, 0)`: both landing conditions read `idx[e, 0] = r`,
  -- the maps are mutually inverse because the second coordinate has one point, and the summands agree by `hu`
  refine Finset.sum_nbij' (fun j' : SE1.Idx => (ix1 (n := 1600000) (j' 0) : SE.Idx))
    (fun j : SE.Idx => (ix2 (n0 := 1600000) (n1 := 1) (j 0) 0 : SE1.Idx)) ?_ ?_ ?_ ?_ ?_
  · intro j' hj'
    obtain ⟨e, z, rfl⟩ : ∃ (e : Fin 1600000) (z : Fin 1), j' = ix2 e z := ⟨j' 0, j' 1, eq_ix2 j'⟩
    rw [Finset.mem_filter] at hj' ⊢
    exact ⟨Finset.mem_univ _, (dRow_lands e idx r).2 ((dCol_lands e z idx r).1 hj'.2)⟩
  · intro j hj
    obtain ⟨e, rfl⟩ : ∃ e : Fin 1600000, j = ix1 e := ⟨j 0, eq_ix1 j⟩
    rw [Finset.mem_filter] at hj ⊢
    exact ⟨Finset.mem_univ _, (dCol_lands e 0 idx r).2 ((dRow_lands e idx r).1 hj.2)⟩
  · intro j' _
    obtain ⟨e, z, rfl⟩ : ∃ (e : Fin 1600000) (z : Fin 1), j' = ix2 e z := ⟨j' 0, j' 1, eq_ix2 j'⟩
    have hz : z = 0 := Subsingleton.elim _ _
    subst hz
    rfl
  · intro j _
    obtain ⟨e, rfl⟩ : ∃ e : Fin 1600000, j = ix1 e := ⟨j 0, eq_ix1 j⟩
    rfl
  · intro j' _
    obtain ⟨e, z, rfl⟩ : ∃ (e : Fin 1600000) (z : Fin 1), j' = ix2 e z := ⟨j' 0, j' 1, eq_ix2 j'⟩
    have hz : z = 0 := Subsingleton.elim _ _
    subst hz
    exact hu e

end Cert.Sage.Deg

end
-- ==== Proof.Bridge.lean ====
/-
  The two programs aggregate along the edges in the same way and divide by the same degrees.

  The aggregation is the same operations over the same records in both programs.  The degree column differs in how it
  is built: one program adds the ones into a column, the other adds them into a vector of 100000 entries and casts the
  vector to a column.  Entry `(r, 0)` of the cast is entry `r` of the vector, and adding into the column at `(r, 0)` is
  adding into the vector at `r` (the updates and the zero operands are the same numbers in both layouts), so the two
  columns are equal.
-/
import proofs.«171853_j26731876451057_1_alg».proof.Proof.KernelTerms
import proofs.«171853_j26731876451057_1_alg».proof.Proof.RefTerms
import proofs.«171853_j26731876451057_1_alg».proof.Proof.DegColumn
import proofs.«171853_j26731876451057_1_alg».proof.Proof.LibColumns
import Idealize.ShloMosaic.Lib.ValueIdx
import Idealize.ShloMosaic.Lib.Pipeline.Value

noncomputable section

namespace Cert.Sage.Bridge

open Idealize.ShloMosaic Idealize.ShloMosaic.ValueIdx

variable [Cert.KernelIdeal.Facts] [Cert.ReferenceIdeal.Facts]

/-- At the ideal values the host's accumulating scatter is the exact one: each entry plus the sum of the updates
    landing on it.  Stated over arbitrary shapes, so that it is used by matching and never by computing. -/
theorem scatterAdd_ideal {s si u : Shape} {φ : FTy} {w : Nat} (d : ScatterDims s si u) (x : FVec Ideal s φ)
    (idx : IVec si w) (upd : FVec Ideal u φ) : Host.scatterAdd d x idx upd = Ideal.hostScatterAdd d x idx upd := rfl

/-- The aggregation along the edges is one map in both programs. -/
theorem aggr_eq (ei : IVec ⟨2, ![2, 1600000]⟩ 32) (feat : (⟨2, ![100000, 64]⟩ : Shape).Idx → EReal) :
    Cert.Sage.K.aggr ei feat = Cert.Sage.R.aggr ei feat := by
  -- the same operations over the same records and arguments, named in two namespaces
  rfl

/-- The degree column is one column in both programs. -/
theorem deg_eq (ei : IVec ⟨2, ![2, 1600000]⟩ 32) :
    (Cert.Sage.K.deg ei : (⟨2, ![100000, 1]⟩ : Shape).Idx → EReal) = Cert.Sage.R.deg ei := by
  funext i
  -- an index of the column is `(r, z)` with `z` the one point of the unit axis
  obtain ⟨r, z, rfl⟩ : ∃ (r : Fin 100000) (z : Fin 1), i = ix2 r z := ⟨i 0, i 1, eq_ix2 i⟩
  have hz : z = 0 := Subsingleton.elim _ _
  subst hz
  unfold Cert.Sage.K.deg Cert.Sage.K.degOf Cert.Sage.R.deg
  -- entry `(r, 0)` of the cast is entry `r` of the vector
  refine (Cert.LibColumns.shapeCast_a_a1_apply _ _ r 0).trans ?_
  -- both scatters are the exact ones at the ideal values
  refine (congrFun (scatterAdd_ideal _ _ _ _) (ix1 r)).trans ?_
  refine Eq.trans ?_ (congrFun (scatterAdd_ideal _ _ _ _) (ix2 r (0 : Fin 1))).symm
  -- adding into the column at `(r, 0)` is adding into the vector at `r`: the dimension numbers and the index column are
  -- the same in both programs, and the operands and the updates are broadcasts of one scalar
  refine (Cert.Sage.Deg.scatter_column _ _ _ _ ?_ ?_ (Cert.Sage.R.dstw ei) r).symm
  · -- every entry of either zero operand is the scalar zero
    intro r'
    exact (broadcastInDim_apply _ _ _ _ ix0 (fun a => a.elim0)).trans
      (broadcastInDim_apply _ _ _ _ ix0 (fun a => a.elim0)).symm
  · -- every entry of either array of updates is the scalar one
    intro e
    exact (broadcastInDim_apply _ _ _ _ ix0 (fun a => a.elim0)).trans
      (broadcastInDim_apply _ _ _ _ ix0 (fun a => a.elim0)).symm

end Cert.Sage.Bridge

end
-- ==== Proof.lean ====
/-
  A three-layer graph network: the kernel program against its reference, over the extended reals.

  Each layer gathers the rows of its input the edges' sources name, adds them up at the edges' destinations, divides by
  the in-degree clipped at one, multiplies by one weight matrix, adds the input times a second weight matrix and a bias,
  and (in the first two layers) clips at zero.  The reference does all of this in host operations.  The kernel program
  does the gather, the scatter-add and the degree count in host operations and the rest in three launches of one kernel
  over blocks of 2000 rows; it builds the degree column by adding ones into a vector and casting the vector to a column,
  where the reference adds them into the column.

  Both programs are shown to end at the network `Cert.Sage.net` of the specification: the kernel program by reading its
  last output array back through its regions and host stretches (each region's output is the layer of the arrays it
  found: the stored block's entry at `(r, q)` is the layer's entry at row `2000 t + r`, the blocks cover the array), the
  reference by reading its run's result term as three nested layers.  A change of float format is the identity over the
  extended reals and a matrix product into a zero accumulator is the plain sum over the contracted axis, so the two
  layers are the same expression; the two aggregations are the same operations; and the two degree columns are equal
  because adding into a column at `(r, 0)` is adding into the vector at `r`.  No algebraic law is used, so the
  precondition (finite inputs) is never opened.  The frames are the generated ones; the idealization rewrote nothing.
-/
import proofs.«171853_j26731876451057_1_alg».proof.Defs
import proofs.«171853_j26731876451057_1_alg».proof.Proof.Gen.Kernel
import proofs.«171853_j26731876451057_1_alg».proof.Proof.Gen.Kernel.Frame
import proofs.«171853_j26731876451057_1_alg».proof.Proof.Gen.KernelIdeal
import proofs.«171853_j26731876451057_1_alg».proof.Proof.Gen.KernelIdeal.Frame
import proofs.«171853_j26731876451057_1_alg».proof.Proof.Gen.ReferenceIdeal
import proofs.«171853_j26731876451057_1_alg».proof.Proof.Gen.ReferenceIdeal.Run
import proofs.«171853_j26731876451057_1_alg».proof.Proof.Gen.Pre_finite_inputs
import proofs.«171853_j26731876451057_1_alg».proof.Proof.KernelRun
import proofs.«171853_j26731876451057_1_alg».proof.Proof.Fold
import proofs.«171853_j26731876451057_1_alg».proof.Proof.RefValue
import proofs.«171853_j26731876451057_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program terminates without a fault and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end at the network of the arguments. -/
theorem algebraic : Cert.algebraic_KernelIdeal_ReferenceIdeal := by
  intro m ρ m' ρ' _ hagree
  refine ⟨fun c => Cert.Sage.net (Cert.Sage.K.aggr (m ((c.tc : Thread Cert.KernelIdeal.nD Cert.KernelIdeal.τ).loc Cert.KernelIdeal.main_arg1))) (Cert.Sage.K.deg (m ((c.tc : Thread Cert.KernelIdeal.nD Cert.KernelIdeal.τ).loc Cert.KernelIdeal.main_arg1))) (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.Sage.Fold.result_eq m ρ c), (h c).2⟩)
      (Cert.Sage.KRun.run_result (F := Ideal) m ρ)
  · refine (θ_run Cert.ReferenceIdeal.defs _ _).mono (fun _ h c => ⟨(h c).1.trans ?_, (h c).2⟩)
      (Cert.ReferenceIdeal.Value.run (F := Ideal) m' ρ')
    refine (Cert.Sage.Ref.res_eq m' c).trans ?_
    obtain ⟨h0, h1, h2, h3, h4, h5, h6, h7, h8, h9, h10⟩ := hagree c
    rw [h0, h1, h2, h3, h4, h5, h6, h7, h8, h9, h10]
    have ha : Cert.Sage.R.aggr (m ((c.tc : Thread Cert.KernelIdeal.nD Cert.KernelIdeal.τ).loc Cert.KernelIdeal.main_arg1)) = Cert.Sage.K.aggr (m ((c.tc : Thread Cert.KernelIdeal.nD Cert.KernelIdeal.τ).loc Cert.KernelIdeal.main_arg1)) :=
      funext fun feat => (Cert.Sage.Bridge.aggr_eq _ feat).symm
    have hd : Cert.Sage.R.deg (m ((c.tc : Thread Cert.KernelIdeal.nD Cert.KernelIdeal.τ).loc Cert.KernelIdeal.main_arg1)) = Cert.Sage.K.deg (m ((c.tc : Thread Cert.KernelIdeal.nD Cert.KernelIdeal.τ).loc Cert.KernelIdeal.main_arg1)) := (Cert.Sage.Bridge.deg_eq _).symm
    rw [ha, hd]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
